-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S4096 : Shape := ⟨1, ![4096]⟩
abbrev S1x1024 : Shape := ⟨2, ![1, 1024]⟩
abbrev S1024x4096 : Shape := ⟨2, ![1024, 4096]⟩
abbrev S1024x1024 : Shape := ⟨2, ![1024, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S4096 : S_.BroadcastsInDim S4096 (![] : Fin 0 → Fin S4096.rank)
  reducesTo_S4096_S_d0 : S4096.ReducesTo [0] S_

variable [Facts]

def fn_part3 {F : FTy → Type} [FloatOps F] (main_v47 : IVec S_ 1) (main_v49 : IVec S1x1024 1) (main_c_19 : IVec S_ 1) : IVec S_ 1 :=
  let main_v50 : IVec S_ 1 := (fun x v => Host.reduce IntOp.andi x v reducesTo_S1x1024_S_d0_1 h_S_) main_v49 main_c_19
  let main_v51 : IVec S_ 1 := andi main_v47 main_v50
  main_v51

def fn_part2 {F : FTy → Type} [FloatOps F] (main_arg1 : IVec S4096 32) (main_arg2 : IVec S4096 32) (main_arg3 : FVec F S1x1024 .f32) (main_v33 : IVec S_ 1) : IVec S_ 1 :=
  let main_c_12 : IVec S_ 32 := constantI S_ 32 4294966272#32
  let main_v34 : IVec S4096 32 := broadcastInDim S4096 ![] bcast_S_S4096 main_c_12
  let main_v35 : IVec S4096 1 := cmpi .sge main_arg1 main_v34
  let main_c_13 : IVec S_ 32 := constantI S_ 32 1024#32
  let main_v36 : IVec S4096 32 := broadcastInDim S4096 ![] bcast_S_S4096 main_c_13
  let main_v37 : IVec S4096 1 := cmpi .slt main_arg1 main_v36
  let main_v38 : IVec S4096 1 := andi main_v35 main_v37
  let main_c_14 : IVec S_ 1 := constantI S_ 1 1#1
  let main_v39 : IVec S_ 1 := (fun x v => Host.reduce IntOp.andi x v reducesTo_S4096_S_d0 h_S_) main_v38 main_c_14
  let main_v40 : IVec S_ 1 := andi main_v33 main_v39
  let main_c_15 : IVec S_ 32 := constantI S_ 32 4294966272#32
  let main_v41 : IVec S4096 32 := broadcastInDim S4096 ![] bcast_S_S4096 main_c_15
  let main_v42 : IVec S4096 1 := cmpi .sge main_arg2 main_v41
  let main_c_16 : IVec S_ 32 := constantI S_ 32 1024#32
  let main_v43 : IVec S4096 32 := broadcastInDim S4096 ![] bcast_S_S4096 main_c_16
  let main_v44 : IVec S4096 1 := cmpi .slt main_arg2 main_v43
  let main_v45 : IVec S4096 1 := andi main_v42 main_v44
  let main_c_17 : IVec S_ 1 := constantI S_ 1 1#1
  let main_v46 : IVec S_ 1 := (fun x v => Host.reduce IntOp.andi x v reducesTo_S4096_S_d0 h_S_) main_v45 main_c_17
  let main_v47 : IVec S_ 1 := andi main_v40 main_v46
  let main_cst_18 : FVec F S_ .f32 := constant S_ .f32 0x00000000#32
  let main_v48 : FVec F S1x1024 .f32 := broadcastInDim S1x1024 ![] bcast_S_S1x1024 main_cst_18
  let main_v49 : IVec S1x1024 1 := cmpf .une main_arg3 main_v48
  let main_c_19 : IVec S_ 1 := constantI S_ 1 1#1
  fn_part3 (F := F) main_v47 main_v49 main_c_19

def fn_part1 {F : FTy → Type} [FloatOps F] (main_arg1 : IVec S4096 32) (main_arg2 : IVec S4096 32) (main_arg3 : FVec F S1x1024 .f32) (main_arg6 : FVec F S1024x1024 .f32) (main_arg7 : FVec F S1024 .f32) (main_arg8 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024x1024 .f32 := Host.absf main_arg6
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg7
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg8
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg1 main_arg2 main_arg3 main_v33

def fn {F : FTy → Type} [FloatOps F] (main_arg0 : FVec F S32768x1024 .f32) (main_arg1 : IVec S4096 32) (main_arg2 : IVec S4096 32) (main_arg3 : FVec F S1x1024 .f32) (main_arg4 : FVec F S1x1024 .f32) (main_arg5 : FVec F S1024x4096 .f32) (main_arg6 : FVec F S1024x1024 .f32) (main_arg7 : FVec F S1024 .f32) (main_arg8 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1x1024 .f32 := Host.absf main_arg3
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x4096 .f32 := Host.absf main_arg5
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg1 main_arg2 main_arg3 main_arg6 main_arg7 main_arg8 main_v13 main_v16
-- ==== Kernel.lean ====
abbrev S32768x1024 : Shape := ⟨2, ![32768, 1024]⟩
abbrev S4096 : Shape := ⟨1, ![4096]⟩
abbrev S1x1024 : Shape := ⟨2, ![1, 1024]⟩
abbrev S1024x4096 : Shape := ⟨2, ![1024, 4096]⟩
abbrev S1024x1024 : Shape := ⟨2, ![1024, 1024]⟩
abbrev S1024 : Shape := ⟨1, ![1024]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S1x4096 : Shape := ⟨2, ![1, 4096]⟩
abbrev S32768x4096 : Shape := ⟨2, ![32768, 4096]⟩
abbrev S4096x1024 : Shape := ⟨2, ![4096, 1024]⟩
abbrev S5120x1024 : Shape := ⟨2, ![5120, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 164
  | .vmem => 15
  | .smem => 0
  | _ => 0

abbrev hbmTy0_0 (i : Nat) : BufTy := match i % 128 with
  | 0 => ⟨S32768x1024, .f32⟩
  | 1 => ⟨S4096, .i32⟩
  | 2 => ⟨S4096, .i32⟩
  | 3 => ⟨S1x1024, .f32⟩
  | 4 => ⟨S1x1024, .f32⟩
  | 5 => ⟨S1024x4096, .f32⟩
  | 6 => ⟨S1024x1024, .f32⟩
  | 7 => ⟨S1024, .f32⟩
  | 8 => ⟨S1024, .f32⟩
  | 9 => ⟨S_, .f32⟩
  | 10 => ⟨S1x1024, .f32⟩
  | 11 => ⟨S1x1024, .f32⟩
  | 12 => ⟨S1024, .f32⟩
  | 13 => ⟨S_, .i32⟩
  | 14 => ⟨S4096, .i32⟩
  | 15 => ⟨S4096, .i1⟩
  | 16 => ⟨S_, .i32⟩
  | 17 => ⟨S4096, .i32⟩
  | 18 => ⟨S4096, .i32⟩
  | 19 => ⟨S4096, .i32⟩
  | 20 => ⟨S4096x1, .i32⟩
  | 21 => ⟨S1, .i32⟩
  | 22 => ⟨S_, .i32⟩
  | 23 => ⟨S4096x1, .i32⟩
  | 24 => ⟨S4096x1, .i1⟩
  | 25 => ⟨S1x1, .i32⟩
  | 26 => ⟨S4096x1, .i32⟩
  | 27 => ⟨S4096x1, .i1⟩
  | 28 => ⟨S4096x1, .i1⟩
  | 29 => ⟨S_, .i1⟩
  | 30 => ⟨S4096, .i1⟩
  | 31 => ⟨S4096, .f32⟩
  | 32 => ⟨S_, .f32⟩
  | 33 => ⟨S4096, .f32⟩
  | 34 => ⟨S4096, .f32⟩
  | 35 => ⟨S1x4096, .f32⟩
  | 36 => ⟨S1024, .f32⟩
  | 37 => ⟨S_, .i32⟩
  | 38 => ⟨S4096, .i32⟩
  | 39 => ⟨S4096, .i1⟩
  | 40 => ⟨S_, .i32⟩
  | 41 => ⟨S4096, .i32⟩
  | 42 => ⟨S4096, .i32⟩
  | 43 => ⟨S4096, .i32⟩
  | 44 => ⟨S4096x1, .i32⟩
  | 45 => ⟨S1, .i32⟩
  | 46 => ⟨S_, .i32⟩
  | 47 => ⟨S4096x1, .i32⟩
  | 48 => ⟨S4096x1, .i1⟩
  | 49 => ⟨S1x1, .i32⟩
  | 50 => ⟨S4096x1, .i32⟩
  | 51 => ⟨S4096x1, .i1⟩
  | 52 => ⟨S4096x1, .i1⟩
  | 53 => ⟨S_, .i1⟩
  | 54 => ⟨S4096, .i1⟩
  | 55 => ⟨S4096, .f32⟩
  | 56 => ⟨S_, .f32⟩
  | 57 => ⟨S4096, .f32⟩
  | 58 => ⟨S4096, .f32⟩
  | 59 => ⟨S1x4096, .f32⟩
  | 60 => ⟨S1024, .f32⟩
  | 61 => ⟨S_, .i32⟩
  | 62 => ⟨S4096, .i32⟩
  | 63 => ⟨S4096, .i1⟩
  | 64 => ⟨S_, .i32⟩
  | 65 => ⟨S4096, .i32⟩
  | 66 => ⟨S4096, .i32⟩
  | 67 => ⟨S4096, .i32⟩
  | 68 => ⟨S4096x1, .i32⟩
  | 69 => ⟨S1, .i32⟩
  | 70 => ⟨S_, .i32⟩
  | 71 => ⟨S4096x1, .i32⟩
  | 72 => ⟨S4096x1, .i1⟩
  | 73 => ⟨S1x1, .i32⟩
  | 74 => ⟨S4096x1, .i32⟩
  | 75 => ⟨S4096x1, .i1⟩
  | 76 => ⟨S4096x1, .i1⟩
  | 77 => ⟨S_, .i1⟩
  | 78 => ⟨S4096, .i1⟩
  | 79 => ⟨S4096, .f32⟩
  | 80 => ⟨S_, .f32⟩
  | 81 => ⟨S4096, .f32⟩
  | 82 => ⟨S4096, .f32⟩
  | 83 => ⟨S1x4096, .f32⟩
  | 84 => ⟨S1024, .f32⟩
  | 85 => ⟨S_, .i32⟩
  | 86 => ⟨S4096, .i32⟩
  | 87 => ⟨S4096, .i1⟩
  | 88 => ⟨S_, .i32⟩
  | 89 => ⟨S4096, .i32⟩
  | 90 => ⟨S4096, .i32⟩
  | 91 => ⟨S4096, .i32⟩
  | 92 => ⟨S4096x1, .i32⟩
  | 93 => ⟨S1, .i32⟩
  | 94 => ⟨S_, .i32⟩
  | 95 => ⟨S4096x1, .i32⟩
  | 96 => ⟨S4096x1, .i1⟩
  | 97 => ⟨S1x1, .i32⟩
  | 98 => ⟨S4096x1, .i32⟩
  | 99 => ⟨S4096x1, .i1⟩
  | 100 => ⟨S4096x1, .i1⟩
  | 101 => ⟨S_, .i1⟩
  | 102 => ⟨S4096, .i1⟩
  | 103 => ⟨S4096, .f32⟩
  | 104 => ⟨S_, .f32⟩
  | 105 => ⟨S4096, .f32⟩
  | 106 => ⟨S4096, .f32⟩
  | 107 => ⟨S1x4096, .f32⟩
  | 108 => ⟨S_, .i32⟩
  | 109 => ⟨S4096, .i32⟩
  | 110 => ⟨S4096, .i1⟩
  | 111 => ⟨S_, .i32⟩
  | 112 => ⟨S4096, .i32⟩
  | 113 => ⟨S4096, .i32⟩
  | 114 => ⟨S4096, .i32⟩
  | 115 => ⟨S4096x1, .i32⟩
  | 116 => ⟨S1, .i32⟩
  | 117 => ⟨S_, .i32⟩
  | 118 => ⟨S4096x1, .i32⟩
  | 119 => ⟨S4096x1, .i1⟩
  | 120 => ⟨S1x1, .i32⟩
  | 121 => ⟨S4096x1, .i32⟩
  | 122 => ⟨S4096x1, .i1⟩
  | 123 => ⟨S4096x1, .i1⟩
  | 124 => ⟨S_, .i1⟩
  | 125 => ⟨S4096, .i1⟩
  | 126 => ⟨S32768x4096, .f32⟩
  | 127 => ⟨S32768x4096, .i1⟩
  | _ => ⟨S32768x1024, .f32⟩

abbrev hbmTy0_1 (i : Nat) : BufTy := match i % 128 with
  | 0 => ⟨S_, .f32⟩
  | 1 => ⟨S32768x4096, .f32⟩
  | 2 => ⟨S32768x4096, .f32⟩
  | 3 => ⟨S32768x4096, .bf16⟩
  | 4 => ⟨S_, .i32⟩
  | 5 => ⟨S4096, .i32⟩
  | 6 => ⟨S4096, .i1⟩
  | 7 => ⟨S_, .i32⟩
  | 8 => ⟨S4096, .i32⟩
  | 9 => ⟨S4096, .i32⟩
  | 10 => ⟨S4096, .i32⟩
  | 11 => ⟨S4096x1, .i32⟩
  | 12 => ⟨S1, .i32⟩
  | 13 => ⟨S_, .i32⟩
  | 14 => ⟨S4096x1, .i32⟩
  | 15 => ⟨S4096x1, .i1⟩
  | 16 => ⟨S1x1, .i32⟩
  | 17 => ⟨S4096x1, .i32⟩
  | 18 => ⟨S4096x1, .i1⟩
  | 19 => ⟨S4096x1, .i1⟩
  | 20 => ⟨S_, .i1⟩
  | 21 => ⟨S4096, .i1⟩
  | 22 => ⟨S32768x4096, .f32⟩
  | 23 => ⟨S32768x4096, .i1⟩
  | 24 => ⟨S_, .f32⟩
  | 25 => ⟨S32768x4096, .f32⟩
  | 26 => ⟨S32768x4096, .f32⟩
  | 27 => ⟨S32768x4096, .bf16⟩
  | 28 => ⟨S4096x1024, .f32⟩
  | 29 => ⟨S4096x1024, .bf16⟩
  | 30 => ⟨S1024x1024, .f32⟩
  | 31 => ⟨S1024x1024, .bf16⟩
  | 32 => ⟨S5120x1024, .bf16⟩
  | 33 => ⟨S1x1024, .f32⟩
  | 34 => ⟨S1x1024, .f32⟩
  | 35 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S1x4096, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S5120x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_cst : Ref sig .tc := ⟨.hbm, 32, rfl⟩
abbrev main_call0_v14 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_cst : Ref sig .tc := ⟨.hbm, 56, rfl⟩
abbrev main_call1_v14 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_cst : Ref sig .tc := ⟨.hbm, 80, rfl⟩
abbrev main_call2_v14 : Ref sig .tc := ⟨.hbm, 81, rfl⟩
abbrev main_v9 : Ref sig .tc := ⟨.hbm, 82, rfl⟩
abbrev main_v10 : Ref sig .tc := ⟨.hbm, 83, rfl⟩
abbrev main_v11 : Ref sig .tc := ⟨.hbm, 84, rfl⟩
abbrev main_call3_c : Ref sig .tc := ⟨.hbm, 85, rfl⟩
abbrev main_call3_v0 : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_c_1 : Ref sig .tc := ⟨.hbm, 93, rfl⟩
abbrev main_call3_c_2 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_3 : Ref sig .tc := ⟨.hbm, 101, rfl⟩
abbrev main_call3_v12 : Ref sig .tc := ⟨.hbm, 102, rfl⟩
abbrev main_call3_v13 : Ref sig .tc := ⟨.hbm, 103, rfl⟩
abbrev main_call3_cst : Ref sig .tc := ⟨.hbm, 104, rfl⟩
abbrev main_call3_v14 : Ref sig .tc := ⟨.hbm, 105, rfl⟩
abbrev main_v12 : Ref sig .tc := ⟨.hbm, 106, rfl⟩
abbrev main_v13 : Ref sig .tc := ⟨.hbm, 107, rfl⟩
abbrev main_call4_c : Ref sig .tc := ⟨.hbm, 108, rfl⟩
abbrev main_call4_v0 : Ref sig .tc := ⟨.hbm, 109, rfl⟩
abbrev main_call4_v1 : Ref sig .tc := ⟨.hbm, 110, rfl⟩
abbrev main_call4_c_0 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_v5 : Ref sig .tc := ⟨.hbm, 115, rfl⟩
abbrev main_call4_c_1 : Ref sig .tc := ⟨.hbm, 116, rfl⟩
abbrev main_call4_c_2 : Ref sig .tc := ⟨.hbm, 117, rfl⟩
abbrev main_call4_v6 : Ref sig .tc := ⟨.hbm, 118, rfl⟩
abbrev main_call4_v7 : Ref sig .tc := ⟨.hbm, 119, rfl⟩
abbrev main_call4_v8 : Ref sig .tc := ⟨.hbm, 120, rfl⟩
abbrev main_call4_v9 : Ref sig .tc := ⟨.hbm, 121, rfl⟩
abbrev main_call4_v10 : Ref sig .tc := ⟨.hbm, 122, rfl⟩
abbrev main_call4_v11 : Ref sig .tc := ⟨.hbm, 123, rfl⟩
abbrev main_call4_c_3 : Ref sig .tc := ⟨.hbm, 124, rfl⟩
abbrev main_call4_v12 : Ref sig .tc := ⟨.hbm, 125, rfl⟩
abbrev main_call4_v13 : Ref sig .tc := ⟨.hbm, 126, rfl⟩
abbrev main_call4_v14 : Ref sig .tc := ⟨.hbm, 127, rfl⟩
abbrev main_call4_cst : Ref sig .tc := ⟨.hbm, 128, rfl⟩
abbrev main_call4_v15 : Ref sig .tc := ⟨.hbm, 129, rfl⟩
abbrev main_v14 : Ref sig .tc := ⟨.hbm, 130, rfl⟩
abbrev main_v15 : Ref sig .tc := ⟨.hbm, 131, rfl⟩
abbrev main_call5_c : Ref sig .tc := ⟨.hbm, 132, rfl⟩
abbrev main_call5_v0 : Ref sig .tc := ⟨.hbm, 133, rfl⟩
abbrev main_call5_v1 : Ref sig .tc := ⟨.hbm, 134, rfl⟩
abbrev main_call5_c_0 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_call5_v5 : Ref sig .tc := ⟨.hbm, 139, rfl⟩
abbrev main_call5_c_1 : Ref sig .tc := ⟨.hbm, 140, rfl⟩
abbrev main_call5_c_2 : Ref sig .tc := ⟨.hbm, 141, rfl⟩
abbrev main_call5_v6 : Ref sig .tc := ⟨.hbm, 142, rfl⟩
abbrev main_call5_v7 : Ref sig .tc := ⟨.hbm, 143, rfl⟩
abbrev main_call5_v8 : Ref sig .tc := ⟨.hbm, 144, rfl⟩
abbrev main_call5_v9 : Ref sig .tc := ⟨.hbm, 145, rfl⟩
abbrev main_call5_v10 : Ref sig .tc := ⟨.hbm, 146, rfl⟩
abbrev main_call5_v11 : Ref sig .tc := ⟨.hbm, 147, rfl⟩
abbrev main_call5_c_3 : Ref sig .tc := ⟨.hbm, 148, rfl⟩
abbrev main_call5_v12 : Ref sig .tc := ⟨.hbm, 149, rfl⟩
abbrev main_call5_v13 : Ref sig .tc := ⟨.hbm, 150, rfl⟩
abbrev main_call5_v14 : Ref sig .tc := ⟨.hbm, 151, rfl⟩
abbrev main_call5_cst : Ref sig .tc := ⟨.hbm, 152, rfl⟩
abbrev main_call5_v15 : Ref sig .tc := ⟨.hbm, 153, rfl⟩
abbrev main_v16 : Ref sig .tc := ⟨.hbm, 154, rfl⟩
abbrev main_v17 : Ref sig .tc := ⟨.hbm, 155, rfl⟩
abbrev main_v18 : Ref sig .tc := ⟨.hbm, 156, rfl⟩
abbrev main_v19 : Ref sig .tc := ⟨.hbm, 157, rfl⟩
abbrev main_v20 : Ref sig .tc := ⟨.hbm, 158, rfl⟩
abbrev main_v21 : Ref sig .tc := ⟨.hbm, 159, rfl⟩
abbrev main_v22 : Ref sig .tc := ⟨.hbm, 160, rfl⟩
abbrev main_v23 : Ref sig .tc := ⟨.hbm, 161, rfl⟩
abbrev main_v24 : Ref sig .tc := ⟨.hbm, 162, rfl⟩
abbrev main_v25 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  bcast_S_S1x1024 : S_.BroadcastsInDim S1x1024 (![] : Fin 0 → Fin S1x1024.rank)
  shapeCasts_S1x1024_S1024 : S1x1024.ShapeCasts S1024
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  shapeCasts_S4096_S1x4096 : S4096.ShapeCasts S1x4096
  bcast_S4096_S32768x4096_1 : S4096.BroadcastsInDim S32768x4096 (![1] : Fin 1 → Fin S32768x4096.rank)
  bcast_S_S32768x4096 : S_.BroadcastsInDim S32768x4096 (![] : Fin 0 → Fin S32768x4096.rank)
  bitsLt_bf16_f32 : FTy.bits .bf16 < FTy.bits .f32
  transposes_S1024x4096_S4096x1024_1_0 : S1024x4096.Transposes [1, 0] S4096x1024
  transposes_S1024x1024_S1024x1024_1_0 : S1024x1024.Transposes [1, 0] S1024x1024
  concatenates_S4096x1024_S1024x1024_S5120x1024_d0 : Shape.Concatenates [S4096x1024, S1024x1024] S5120x1024 0
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S5120x1024_S4096x1024_0_0 : ∀ a, (![0, 0] : Fin 2 → Nat) a + S4096x1024.size a ≤ S5120x1024.size a
  h_S4096x1024 : 0 < S4096x1024.numel
  inb_S5120x1024_S1024x1024_4096_0 : ∀ a, (![4096, 0] : Fin 2 → Nat) a + S1024x1024.size a ≤ S5120x1024.size a
  h_S1024x1024 : 0 < S1024x1024.numel
  reduces_S256x1024_S256 : S256x1024.Reduces [1] S256
  shapeCasts_S256_S256x1 : S256.ShapeCasts S256x1
  broadcasts_S256x1_S256x1024 : S256x1.Broadcasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  gather_S1024_S4096x1_S4096_n_0_n_n_0_1_1_wf : GatherDims.WF S1024 S4096x1 S4096 [] [0] [] [0] [] 1 ![1]
  gather_S32768x1024_S4096x1_S32768x4096_0_1_n_n_1_1_327681_wf : GatherDims.WF S32768x1024 S4096x1 S32768x4096 [0] [1] [] [1] [] 1 ![32768, 1]
  dot_S256x4096_S4096x1024_S256x1024_1_0_0_1_n_n_wf : DotDims.WF S256x4096 S4096x1024 S256x1024 [1] [0] [0] [1] [] []
  dot_S256x1024_S1024x1024_S256x1024_1_0_0_1_n_n_wf : DotDims.WF S256x1024 S1024x1024 S256x1024 [1] [0] [0] [1] [] []
  hcc0_scratch1 : 14 + S_.numel ≤ 15
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S32768x4096.size a
  hwx0_1 : ∀ i : grid0.Coords, EltTy.bits .bf16 = 32 ∨ (Rect.block (s := S32768x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S32768x4096.size a
  hwx0_2 : ∀ i : grid0.Coords, EltTy.bits .bf16 = 32 ∨ (Rect.block (s := S32768x4096) S256x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_10 i = cc0_transform_10 i'
  hinb0_9 : ∀ (i : grid0.Coords) a, (cc0_transform_10 i a + 1) * S256x1024.size a ≤ S32768x1024.size a
  hwx0_9 : ∀ i : grid0.Coords, EltTy.bits .f32 = 32 ∨ (Rect.block (s := S32768x1024) S256x1024.size (cc0_transform_10 i) (hinb0_9 i)).WholeWords (EltTy.packing .f32)

variable [Facts₀]

abbrev cc0_scratch1 : DmaSems sig S_ := SemArray.consecutive 14 S_ hcc0_scratch1
def gather_S1024_S4096x1_S4096_n_0_n_n_0_1_1 : GatherDims S1024 S4096x1 S4096 where
  offsetDims := []
  collapsedSliceDims := [0]
  operandBatchingDims := []
  startIndicesBatchingDims := []
  startIndexMap := [0]
  indexVectorDim := 1
  sliceSizes := ![1]
  wf := gather_S1024_S4096x1_S4096_n_0_n_n_0_1_1_wf
def gather_S32768x1024_S4096x1_S32768x4096_0_1_n_n_1_1_327681 : GatherDims S32768x1024 S4096x1 S32768x4096 where
  offsetDims := [0]
  collapsedSliceDims := [1]
  operandBatchingDims := []
  startIndicesBatchingDims := []
  startIndexMap := [1]
  indexVectorDim := 1
  sliceSizes := ![32768, 1]
  wf := gather_S32768x1024_S4096x1_S32768x4096_0_1_n_n_1_1_327681_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S256x1024.size cc0_transform_10 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S4096 : Shape := ⟨1, ![4096]⟩
abbrev S1x1024 : Shape := ⟨2, ![1, 1024]⟩
abbrev S1024x4096 : Shape := ⟨2, ![1024, 4096]⟩
abbrev S1024x1024 : Shape := ⟨2, ![1024, 1024]⟩
abbrev S1024 : Shape := ⟨1, ![1024]⟩
abbrev S_ : Shape := ⟨0, ![]⟩
abbrev S4096x1 : Shape := ⟨2, ![4096, 1]⟩
abbrev S32768x4096 : Shape := ⟨2, ![32768, 4096]⟩
abbrev S4096x1024 : Shape := ⟨2, ![4096, 1024]⟩
abbrev S32768 : Shape := ⟨1, ![32768]⟩
abbrev S32768x1 : Shape := ⟨2, ![32768, 1]⟩

abbrev nBuf : Space → Nat
  | .hbm => 66
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4096, .i32⟩
  | .hbm, ⟨2, _⟩ => ⟨S4096, .i32⟩
  | .hbm, ⟨3, _⟩ => ⟨S1x1024, .f32⟩
  | .hbm, ⟨4, _⟩ => ⟨S1x1024, .f32⟩
  | .hbm, ⟨5, _⟩ => ⟨S1024x4096, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S4096x1, .i32⟩
  | .hbm, ⟨21, _⟩ => ⟨S32768x4096, .f32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S32768x4096, .f32⟩
  | .hbm, ⟨31, _⟩ => ⟨S32768x4096, .f32⟩
  | .hbm, ⟨32, _⟩ => ⟨S4096x1024, .f32⟩
  | .hbm, ⟨33, _⟩ => ⟨S32768x1024, .f32⟩
  | .hbm, ⟨34, _⟩ => ⟨S1024x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1024, .f32⟩
  | .hbm, ⟨53, _⟩ => ⟨S32768x1024, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S32768x1, .f32⟩
  | .hbm, ⟨58, _⟩ => ⟨S32768x1024, .f32⟩
  | .hbm, ⟨59, _⟩ => ⟨S32768x1024, .f32⟩
  | .hbm, ⟨60, _⟩ => ⟨S1x1024, .f32⟩
  | .hbm, ⟨61, _⟩ => ⟨S32768x1024, .f32⟩
  | .hbm, ⟨62, _⟩ => ⟨S32768x1024, .f32⟩
  | .hbm, ⟨63, _⟩ => ⟨S1x1024, .f32⟩
  | .hbm, ⟨64, _⟩ => ⟨S32768x1024, .f32⟩
  | .hbm, ⟨65, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]

class Facts₀ : Prop where
  bcast_S1x1024_S32768x1024_0_1 : S1x1024.BroadcastsInDim S32768x1024 (![0, 1] : Fin 2 → Fin S32768x1024.rank)
  bcast_S_S4096 : S_.BroadcastsInDim S4096 (![] : Fin 0 → Fin S4096.rank)
  bcast_S4096_S4096x1_0 : S4096.BroadcastsInDim S4096x1 (![0] : Fin 1 → Fin S4096x1.rank)
  transposes_S1024x4096_S4096x1024_1_0 : S1024x4096.Transposes [1, 0] S4096x1024
  transposes_S1024x1024_S1024x1024_1_0 : S1024x1024.Transposes [1, 0] S1024x1024
  reducesTo_S32768x1024_S32768_d1 : S32768x1024.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x1024_0_1 : S32768x1.BroadcastsInDim S32768x1024 (![0, 1] : Fin 2 → Fin S32768x1024.rank)
  bcast_S1024_S1x1024_1 : S1024.BroadcastsInDim S1x1024 (![1] : Fin 1 → Fin S1x1024.rank)
  gather_S32768x1024_S4096x1_S32768x4096_0_1_n_n_1_1_327681_wf : GatherDims.WF S32768x1024 S4096x1 S32768x4096 [0] [1] [] [1] [] 1 ![32768, 1]
  dot_S32768x4096_S4096x1024_S32768x1024_1_0_0_1_n_n_wf : DotDims.WF S32768x4096 S4096x1024 S32768x1024 [1] [0] [0] [1] [] []
  dot_S32768x1024_S1024x1024_S32768x1024_1_0_0_1_n_n_wf : DotDims.WF S32768x1024 S1024x1024 S32768x1024 [1] [0] [0] [1] [] []

variable [Facts₀]

def gather_S32768x1024_S4096x1_S32768x4096_0_1_n_n_1_1_327681 : GatherDims S32768x1024 S4096x1 S32768x4096 where
  offsetDims := [0]
  collapsedSliceDims := [1]
  operandBatchingDims := []
  startIndicesBatchingDims := []
  startIndexMap := [1]
  indexVectorDim := 1
  sliceSizes := ![32768, 1]
  wf := gather_S32768x1024_S4096x1_S32768x4096_0_1_n_n_1_1_327681_wf
def dot_S32768x4096_S4096x1024_S32768x1024_1_0_0_1_n_n : DotDims S32768x4096 S4096x1024 S32768x1024 where
  lhsContracting := [1]
  rhsContracting := [0]
  lhsNonContracting := [0]
  rhsNonContracting := [1]
  lhsBatch := []
  rhsBatch := []
  wf := dot_S32768x4096_S4096x1024_S32768x1024_1_0_0_1_n_n_wf
def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.Body.lean ====
import proofs.«402356_j54820962566348_3_alg».proof.Proof.Gen.KernelIdeal.Frame
import Idealize.ShloMosaic.PureOps.Ideal
import Idealize.ShloMosaic.Lib.Pipeline.Value

set_option maxRecDepth 16384
noncomputable section
namespace Cert.KernelIdeal.Body
open Cert.KernelIdeal Cert.KernelIdeal.Gen Idealize.ShloMosaic Idealize.ShloMosaic.TcCoe Idealize.ShloMosaic.Tactic Idealize.SL.Sem
variable {F : FTy → Type} [FloatOps F]

/-!
  What one grid point computes, as a value: the stored block is the body's arithmetic over the point's nine input
  blocks and over the weights held in the scratch, and the scratch holds the weights the region finds in HBM after
  every point, because each core's first point copies them in and no other point writes the scratch.
-/

theorem hz : (![0, 0] : Fin 2 → Nat) = fun _ => 0 := funext fun a => by fin_cases a <;> rfl

/-- The weights as the body's own copy delivers them into the scratch: the HBM operand's contents. -/
abbrev hbW (c : Dev nD) (fh0 : HbBuf0 (F := F) c hbM0_0) : S5120x1024.Idx → Elt F .bf16 :=
  ReadAs.same.apply (View.read (Elt F) (View.whole main_v22) fh0)

/-- The block one grid point stores: the body's arithmetic over the point's nine input blocks and over the
    weights W held in the scratch, whose first 4096 rows multiply the pair products and whose last 1024 rows the raw
    features. -/
def blockOf (x0 : Vec F S256x1024 .f32) (x1 x2 : Vec F S256x4096 .bf16) (x3 x4 x5 x6 : Vec F S1x4096 .f32)
    (x7 x8 : Vec F S1x1024 .f32) (W : S5120x1024.Idx → Elt F .bf16) : Vec F S256x1024 .f32 :=
  k0_pay1 (k0_pay2 x1 x2 x3 x4 x5 x6) (k0_pay3 x0)
    (View.ld W (Rect.unit (s := S5120x1024) ![0, 0] ![4096, 1024] inb_S5120x1024_S4096x1024_0_0))
    (View.ld W (Rect.unit (s := S5120x1024) ![4096, 0] ![1024, 1024] inb_S5120x1024_S1024x1024_4096_0)) x7 x8

/-- One store through the whole scratch leaves its payload. -/
theorem canon_whole (w : S5120x1024.Idx → Elt F .bf16) :
    View.canon [(⟨Rect.whole S5120x1024, w⟩ : View.Piece (Elt F) S5120x1024 .bf16)] = w :=
  View.canon_unit_zero (S := S5120x1024) (off := fun _ => 0) rfl (fun _ => by simp) w

/-- At a point that starts the copy, the stored block is the body's arithmetic over the freshly copied weights. -/
theorem out0_A_9_eq (c : Dev nD) (i : grid0.Coords) (arg2 : Memref sig .tc .vmem S256x1024 .f32) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x1024 .f32) (harg9 : arg9.IsWhole) (arg10 : Memref sig .tc .vmem S1x1024 .f32) (harg10 : arg10.IsWhole) (arg12 : Memref sig .tc .vmem S256x1024 .f32) (harg12 : arg12.IsWhole) (arg13 : Memref sig .tc .vmem S5120x1024 .bf16) (harg13 : arg13.IsWhole) (hc0 : cond0_0 i) (hc1 : cond0_1 i) (x0 : Vec F S256x1024 .f32) (x1 : Vec F S256x4096 .bf16) (x2 : Vec F S256x4096 .bf16) (x3 : Vec F S1x4096 .f32) (x4 : Vec F S1x4096 .f32) (x5 : Vec F S1x4096 .f32) (x6 : Vec F S1x4096 .f32) (x7 : Vec F S1x1024 .f32) (x8 : Vec F S1x1024 .f32) (fh0 : HbBuf0 (F := F) c hbM0_0) : out0_A_9 c i arg2 harg2 arg3 harg3 arg4 harg4 arg5 harg5 arg6 harg6 arg7 harg7 arg8 harg8 arg9 harg9 arg10 harg10 arg12 harg12 arg13 harg13 hc0 hc1 x0 x1 x2 x3 x4 x5 x6 x7 x8 fh0 = blockOf x0 x1 x2 x3 x4 x5 x6 x7 x8 (hbW c fh0) := by
  unfold out0_A_9
  rw [View.read_writes_eq_canon _ _ _ (cover0_A_9 c i arg2 harg2 arg3 harg3 arg4 harg4 arg5 harg5 arg6 harg6 arg7 harg7 arg8 harg8 arg9 harg9 arg10 harg10 arg12 harg12 arg13 harg13 hc0 hc1 x0 x1 x2 x3 x4 x5 x6 x7 x8 fh0)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread,
    View.ld_unit_zero (S := S256x1024) hz, View.ld_unit_zero (S := S256x4096) hz, View.ld_unit_zero (S := S1x4096) hz, View.ld_unit_zero (S := S1x1024) hz, View.readCov_eq_canon', canon_whole]
  rfl

/-- and the scratch is left holding those weights. -/
theorem sout0_A_0_eq (c : Dev nD) (i : grid0.Coords) (arg2 : Memref sig .tc .vmem S256x1024 .f32) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x1024 .f32) (harg9 : arg9.IsWhole) (arg10 : Memref sig .tc .vmem S1x1024 .f32) (harg10 : arg10.IsWhole) (arg12 : Memref sig .tc .vmem S256x1024 .f32) (harg12 : arg12.IsWhole) (arg13 : Memref sig .tc .vmem S5120x1024 .bf16) (harg13 : arg13.IsWhole) (hc0 : cond0_0 i) (hc1 : cond0_1 i) (x0 : Vec F S256x1024 .f32) (x1 : Vec F S256x4096 .bf16) (x2 : Vec F S256x4096 .bf16) (x3 : Vec F S1x4096 .f32) (x4 : Vec F S1x4096 .f32) (x5 : Vec F S1x4096 .f32) (x6 : Vec F S1x4096 .f32) (x7 : Vec F S1x1024 .f32) (x8 : Vec F S1x1024 .f32) (fh0 : HbBuf0 (F := F) c hbM0_0) : sout0_A_0 c i arg2 harg2 arg3 harg3 arg4 harg4 arg5 harg5 arg6 harg6 arg7 harg7 arg8 harg8 arg9 harg9 arg10 harg10 arg12 harg12 arg13 harg13 hc0 hc1 x0 x1 x2 x3 x4 x5 x6 x7 x8 fh0 = hbW c fh0 := by
  unfold sout0_A_0
  rw [View.read_writes_eq_canon _ _ _ (scover0_A_0 c i arg2 harg2 arg3 harg3 arg4 harg4 arg5 harg5 arg6 harg6 arg7 harg7 arg8 harg8 arg9 harg9 arg10 harg10 arg12 harg12 arg13 harg13 hc0 hc1 x0 x1 x2 x3 x4 x5 x6 x7 x8 fh0)]
  unfold kernelRun0_A
  dsimp only
  sl_unfold_words
  exact canon_whole _

/-- At any other point the stored block is the same arithmetic over what the scratch held on entry. -/
theorem out0_B_9_eq (c : Dev nD) (i : grid0.Coords) (arg2 : Memref sig .tc .vmem S256x1024 .f32) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x1024 .f32) (harg9 : arg9.IsWhole) (arg10 : Memref sig .tc .vmem S1x1024 .f32) (harg10 : arg10.IsWhole) (arg12 : Memref sig .tc .vmem S256x1024 .f32) (harg12 : arg12.IsWhole) (arg13 : Memref sig .tc .vmem S5120x1024 .bf16) (harg13 : arg13.IsWhole) (hc0 : ¬cond0_0 i) (hc1 : ¬cond0_1 i) (x0 : Vec F S256x1024 .f32) (x1 : Vec F S256x4096 .bf16) (x2 : Vec F S256x4096 .bf16) (x3 : Vec F S1x4096 .f32) (x4 : Vec F S1x4096 .f32) (x5 : Vec F S1x4096 .f32) (x6 : Vec F S1x4096 .f32) (x7 : Vec F S1x1024 .f32) (x8 : Vec F S1x1024 .f32) (xs0 : Vec F S5120x1024 .bf16) (fh0 : HbBuf0 (F := F) c hbM0_0) : out0_B_9 c i arg2 harg2 arg3 harg3 arg4 harg4 arg5 harg5 arg6 harg6 arg7 harg7 arg8 harg8 arg9 harg9 arg10 harg10 arg12 harg12 arg13 harg13 hc0 hc1 x0 x1 x2 x3 x4 x5 x6 x7 x8 xs0 fh0 = blockOf x0 x1 x2 x3 x4 x5 x6 x7 x8 xs0 := by
  unfold out0_B_9
  rw [View.read_writes_eq_canon _ _ _ (cover0_B_9 c i arg2 harg2 arg3 harg3 arg4 harg4 arg5 harg5 arg6 harg6 arg7 harg7 arg8 harg8 arg9 harg9 arg10 harg10 arg12 harg12 arg13 harg13 hc0 hc1 x0 x1 x2 x3 x4 x5 x6 x7 x8 xs0 fh0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg13.read_unread,
    View.ld_unit_zero (S := S256x1024) hz, View.ld_unit_zero (S := S256x4096) hz, View.ld_unit_zero (S := S1x4096) hz, View.ld_unit_zero (S := S1x1024) hz]
  rfl

variable (m : (ℓ : Loc nD τ sig) → Buf (Elt F) ℓ)

/-- The weights the region finds in HBM: the array the host concatenated before the call. -/
abbrev Wm (c : Dev nD) : S5120x1024.Idx → Elt F .bf16 := hbW c (V m c main_v22)

/-- THE SCRATCH HOLDS THE WEIGHTS AFTER EVERY POINT: a point whose second coordinate is zero copies them in, every
    other point leaves the scratch as it found it. -/
theorem scratch_eq (c : Dev nD) : ∀ (n : ℕ) (hn : n < cfg0.N), (outsAt0 m c n hn).2 = Wm m c := by
  intro n
  induction n with
  | zero =>
    intro hn
    have h0 : (⟨0, hn⟩ : Fin cfg0.N).val % 64 = 0 := rfl
    have h1 := h0
    show (outsAt0 m c (⟨0, hn⟩ : Fin cfg0.N).val (⟨0, hn⟩ : Fin cfg0.N).isLt).2 = _
    rw [outsAt0_A m c ⟨0, hn⟩ h0 h0]
    dsimp only
    exact sout0_A_0_eq (F := F) c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) (ms0_3 (⟨0, hn⟩ : Fin cfg0.N)) (hs0_3 (⟨0, hn⟩ : Fin cfg0.N)) (ms0_4 (⟨0, hn⟩ : Fin cfg0.N)) (hs0_4 (⟨0, hn⟩ : Fin cfg0.N)) (ms0_5 (⟨0, hn⟩ : Fin cfg0.N)) (hs0_5 (⟨0, hn⟩ : Fin cfg0.N)) (ms0_6 (⟨0, hn⟩ : Fin cfg0.N)) (hs0_6 (⟨0, hn⟩ : Fin cfg0.N)) (ms0_7 (⟨0, hn⟩ : Fin cfg0.N)) (hs0_7 (⟨0, hn⟩ : Fin cfg0.N)) (ms0_8 (⟨0, hn⟩ : Fin cfg0.N)) (hs0_8 (⟨0, hn⟩ : Fin cfg0.N)) (ms0_9 (⟨0, hn⟩ : Fin cfg0.N)) (hs0_9 (⟨0, hn⟩ : Fin cfg0.N)) scM0_0 (Memref.isWhole_whole _) ((hcond0_0 (⟨0, hn⟩ : Fin cfg0.N)).mpr h0) ((hcond0_1 (⟨0, hn⟩ : Fin cfg0.N)).mpr h1) (iblk m c 0 (⟨0, hn⟩ : Fin cfg0.N)) (iblk m c 1 (⟨0, hn⟩ : Fin cfg0.N)) (iblk m c 2 (⟨0, hn⟩ : Fin cfg0.N)) (iblk m c 3 (⟨0, hn⟩ : Fin cfg0.N)) (iblk m c 4 (⟨0, hn⟩ : Fin cfg0.N)) (iblk m c 5 (⟨0, hn⟩ : Fin cfg0.N)) (iblk m c 6 (⟨0, hn⟩ : Fin cfg0.N)) (iblk m c 7 (⟨0, hn⟩ : Fin cfg0.N)) (iblk m c 8 (⟨0, hn⟩ : Fin cfg0.N)) (V m c main_v22)
  | succ n ih =>
    intro hn
    show (outsAt0 m c (⟨n + 1, hn⟩ : Fin cfg0.N).val (⟨n + 1, hn⟩ : Fin cfg0.N).isLt).2 = _
    by_cases h0 : (⟨n + 1, hn⟩ : Fin cfg0.N).val % 64 = 0
    · have h1 := h0
      rw [outsAt0_A m c ⟨n + 1, hn⟩ h0 h0]
      dsimp only
      exact sout0_A_0_eq (F := F) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) (ms0_8 (⟨n + 1, hn⟩ : Fin cfg0.N)) (hs0_8 (⟨n + 1, hn⟩ : Fin cfg0.N)) (ms0_9 (⟨n + 1, hn⟩ : Fin cfg0.N)) (hs0_9 (⟨n + 1, hn⟩ : Fin cfg0.N)) scM0_0 (Memref.isWhole_whole _) ((hcond0_0 (⟨n + 1, hn⟩ : Fin cfg0.N)).mpr h0) ((hcond0_1 (⟨n + 1, hn⟩ : Fin cfg0.N)).mpr h1) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (iblk m c 5 (⟨n + 1, hn⟩ : Fin cfg0.N)) (iblk m c 6 (⟨n + 1, hn⟩ : Fin cfg0.N)) (iblk m c 7 (⟨n + 1, hn⟩ : Fin cfg0.N)) (iblk m c 8 (⟨n + 1, hn⟩ : Fin cfg0.N)) (V m c main_v22)
    · have h1 := h0
      rw [outsAt0_B m c ⟨n + 1, hn⟩ h0 h0]
      dsimp only
      unfold sout0_B_0
      exact ih _

/-- THE BLOCK A POINT LEAVES in the output's staging buffer: the body's arithmetic over the point's input blocks and
    the weights. -/
theorem out_eq (c : Dev nD) (t : Fin cfg0.N) :
    (outsAt0 m c t.val t.isLt).1 = blockOf (iblk m c 0 t) (iblk m c 1 t) (iblk m c 2 t) (iblk m c 3 t) (iblk m c 4 t)
      (iblk m c 5 t) (iblk m c 6 t) (iblk m c 7 t) (iblk m c 8 t) (Wm m c) := by
  by_cases h0 : t.val % 64 = 0
  · have h1 := h0
    rw [outsAt0_A m c t h0 h0]
    dsimp only
    exact out0_A_9_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (V m c main_v22)
  · have h1 := h0
    rw [outsAt0_B m c t h0 h1]
    dsimp only
    rw [out0_B_9_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2 (V m c main_v22), scratch_eq m c]

end Cert.KernelIdeal.Body
end
-- ==== Proof.Spec.lean ====
/-
  The function both programs compute, stated once over the argument arrays, index by index.

  Row b of the result is a layer normalisation (biased variance, eps inside the reciprocal square root, then an
  affine map by gamma and beta) of the row c b, where
    c b o = sum over pairs p of pp b p * lw o p  +  sum over k of x b k * w1 o k,
    pp b p = xs b (col_i p) * xs b (col_j p),      xs b k = (x b k - t k) / s k,
  and the column a pair reads is its integer index wrapped once by the axis length when negative and then
  clamped into the axis, which is what a gather does with a start index.
-/
import Idealize.ShloMosaic.PureOps.Ideal
import Idealize.ShloMosaic.Lib.ValueIdx

noncomputable section

namespace Cert.Spec

open Idealize.ShloMosaic Idealize.ShloMosaic.ValueIdx

abbrev SX : Shape := ⟨2, ![32768, 1024]⟩
abbrev SP : Shape := ⟨1, ![4096]⟩
abbrev SR : Shape := ⟨2, ![1, 1024]⟩
abbrev SLW : Shape := ⟨2, ![1024, 4096]⟩
abbrev SW1 : Shape := ⟨2, ![1024, 1024]⟩
abbrev SV : Shape := ⟨1, ![1024]⟩

/-- A negative index counts from the end of the 1024-long axis. -/
def wrap (i : BitVec 32) : BitVec 32 := Scalar.select (IntOp.cmpi .slt i 0#32) (IntOp.addi i 1024#32) i

/-- The column a start index reads: the index as a signed integer, clamped into the axis. -/
def col (w : BitVec 32) : Fin 1024 := ⟨min w.toInt.toNat 1023, by omega⟩

/-- The divisor of both means, 1024, and the epsilon under the reciprocal square root, as the words both programs carry. -/
abbrev n1024 : EReal := Ideal.ofBits .f32 0x44800000#32
abbrev eps : EReal := Ideal.ofBits .f32 0x3727C5AC#32

section
variable (x : SX.Idx → EReal) (ii jj : SP.Idx → BitVec 32) (s t : SR.Idx → EReal)
  (lw : SLW.Idx → EReal) (w1 : SW1.Idx → EReal) (g be : SV.Idx → EReal)

/-- The affinely normalised feature. -/
def xs (b : Fin 32768) (k : Fin 1024) : EReal :=
  Ideal.div (x (ix2 b k) - t (ix2 (0 : Fin 1) k)) (s (ix2 (0 : Fin 1) k))

/-- The product of a pair's two normalised features. -/
def pp (b : Fin 32768) (p : Fin 4096) : EReal :=
  xs x s t b (col (wrap (ii (ix1 p)))) * xs x s t b (col (wrap (jj (ix1 p))))

/-- The row before normalisation: the pair products against lw plus the raw features against w1. -/
def cval (b : Fin 32768) (o : Fin 1024) : EReal :=
  (∑ p : Fin 4096, pp x ii jj s t b p * lw (ix2 o p)) + (∑ k : Fin 1024, x (ix2 b k) * w1 (ix2 o k))

end

/-- Layer normalisation of one row. -/
def mu (row : Fin 1024 → EReal) : EReal := Ideal.div (∑ o : Fin 1024, row o) n1024
def dev (row : Fin 1024 → EReal) (o : Fin 1024) : EReal := row o - mu row
def var (row : Fin 1024 → EReal) : EReal := Ideal.div (∑ o : Fin 1024, dev row o * dev row o) n1024
def ln (g be : Fin 1024 → EReal) (row : Fin 1024 → EReal) (o : Fin 1024) : EReal :=
  dev row o * Ideal.rsqrt (var row + eps) * g o + be o

/-- The result array, as one function of the nine argument arrays. -/
def G (x : SX.Idx → EReal) (ii jj : SP.Idx → BitVec 32) (s t : SR.Idx → EReal)
    (lw : SLW.Idx → EReal) (w1 : SW1.Idx → EReal) (g be : SV.Idx → EReal) : SX.Idx → EReal :=
  fun i => ln (fun o => g (ix1 o)) (fun o => be (ix1 o)) (fun o => cval x ii jj s t lw w1 (i 0) o) (i 1)

/-- For a nonzero divisor, multiplying by the reciprocal is dividing: the kernel's form of the normalisation. -/
theorem mul_div_one {a d : EReal} (one : EReal) (h1 : one = 1) (hd : d ≠ 0) : a * Ideal.div one d = Ideal.div a d := by
  subst h1
  unfold Ideal.div
  rw [if_neg hd, if_neg hd, one_mul]

end Cert.Spec

end
-- ==== Proof.RowLaw.lean ====
/-
  The one algebraic law between the two programs' forms of a row before normalisation.

  The kernel multiplies each centred feature by a reciprocal scale it computed once, (x - t) * (1 / s); the reference
  divides, (x - t) / s. For a nonzero scale these agree on the extended reals (no finiteness is needed), so a row
  assembled from the kernel's gathered blocks and tables is the specification's row.
-/
import proofs.«402356_j54820962566348_3_alg».proof.Proof.Spec

noncomputable section

namespace Cert.Spec

open Idealize.ShloMosaic Idealize.ShloMosaic.ValueIdx

/-- A row of sums over the kernel's operands — X1, X2 the two gathered features of a pair, X3, X5 the gathered
    translations, X4, X6 the gathered reciprocal scales, X0 the raw features, Wt and Wb the two halves of a weight
    column — is the specification's row entry, when every scale is nonzero. -/
theorem row_eq (x : SX.Idx → EReal) (ii jj : SP.Idx → BitVec 32) (s t : SR.Idx → EReal)
    (lw : SLW.Idx → EReal) (w1 : SW1.Idx → EReal) (b : Fin 32768) (o' : Fin 1024)
    (one : EReal) (h1e : one = 1) (hS : ∀ k : Fin 1024, s (ix2 (0 : Fin 1) k) ≠ 0)
    (X0 Wb : Fin 1024 → EReal) (X1 X2 X3 X4 X5 X6 Wt : Fin 4096 → EReal)
    (h0 : ∀ k, X0 k = x (ix2 b k))
    (h1 : ∀ p, X1 p = x (ix2 b (col (wrap (ii (ix1 p))))))
    (h2 : ∀ p, X2 p = x (ix2 b (col (wrap (jj (ix1 p))))))
    (h3 : ∀ p, X3 p = t (ix2 (0 : Fin 1) (col (wrap (ii (ix1 p))))))
    (h4 : ∀ p, X4 p = Ideal.div one (s (ix2 (0 : Fin 1) (col (wrap (ii (ix1 p)))))))
    (h5 : ∀ p, X5 p = t (ix2 (0 : Fin 1) (col (wrap (jj (ix1 p))))))
    (h6 : ∀ p, X6 p = Ideal.div one (s (ix2 (0 : Fin 1) (col (wrap (jj (ix1 p)))))))
    (hWt : ∀ p, Wt p = lw (ix2 o' p)) (hWb : ∀ k, Wb k = w1 (ix2 o' k)) :
    (∑ p : Fin 4096, (((X1 p - X3 p) * X4 p) * ((X2 p - X5 p) * X6 p)) * Wt p) + (∑ k : Fin 1024, X0 k * Wb k)
      = cval x ii jj s t lw w1 b o' := by
  unfold cval
  congr 1
  · refine Finset.sum_congr rfl fun p _ => ?_
    rw [h1, h2, h3, h4, h5, h6, hWt, mul_div_one one h1e (hS _), mul_div_one one h1e (hS _)]
    rfl
  · refine Finset.sum_congr rfl fun k _ => ?_
    rw [h0, hWb]

/-- The normalisation of a row depends on gamma, beta and the row only through their values. -/
theorem ln_congr {g g' be be' row row' : Fin 1024 → EReal} (hg : ∀ o, g o = g' o) (hb : ∀ o, be o = be' o)
    (hr : ∀ o, row o = row' o) (o : Fin 1024) : ln g be row o = ln g' be' row' o := by
  obtain rfl : g = g' := funext hg
  obtain rfl : be = be' := funext hb
  obtain rfl : row = row' := funext hr
  rfl

end Cert.Spec

end
-- ==== Proof.PreDecode.lean ====
/-
  The certificate's precondition, read back. The printed predicate is a conjunction of nine
  all-reductions of one-bit arrays; the claim's hypothesis says its value is 1. Of the nine, three
  bound words and a scale: every word of the two index inputs lies in [-1024, 1024) read signed, and
  no entry of the scale row is zero. A second statement is the word arithmetic of the wrap
  i ↦ (if i < 0 then i + 1024 else i) on that range: the wrapped word lies in [0, 1023].
-/
import proofs.«402356_j54820962566348_3_alg».proof.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.PreDecode

open Idealize.ShloMosaic
open Idealize.ShloMosaic.ValueIdx
open Cert.Pre_finite_inputs

/-- The rank-0 shape has one index. -/
instance : Subsingleton S_.Idx := ⟨fun a b => funext fun d => d.elim0⟩

/-- The two's-complement word of -1024, read signed. -/
theorem toInt_neg1024 : (4294966272#32 : BitVec 32).toInt = -1024 := by decide

/-- The word 1024, read signed. -/
theorem toInt_1024 : (1024#32 : BitVec 32).toInt = 1024 := by decide

/-- One element of the range test of an index input: both comparison words are 1 exactly when the
    word, read signed, lies in [-1024, 1024). -/
theorem range_elem [Facts] (a : IVec S4096 32) (i : S4096.Idx)
    (e : IntOp.andi
        (IntOp.cmpi .sge (a i) (broadcastInDim S4096 ![] Facts.bcast_S_S4096 (constantI S_ 32 4294966272#32) i))
        (IntOp.cmpi .slt (a i) (broadcastInDim S4096 ![] Facts.bcast_S_S4096 (constantI S_ 32 1024#32) i)) = 1#1) :
    -1024 ≤ (a i).toInt ∧ (a i).toInt < 1024 := by
  obtain ⟨e1, e2⟩ := IntOp.andi_eq_one.1 e
  rw [StableHlo.Predicate.bcast_scalar _ Facts.h_S_] at e1 e2
  have h1 := IntOp.cmpi_sge.1 e1
  have h2 := IntOp.cmpi_slt.1 e2
  rw [show constantI S_ 32 4294966272#32 (Shape.Idx.first Facts.h_S_) = 4294966272#32 from rfl, toInt_neg1024] at h1
  rw [show constantI S_ 32 1024#32 (Shape.Idx.first Facts.h_S_) = 1024#32 from rfl, toInt_1024] at h2
  exact ⟨h1, h2⟩

/-- One element of the scale test: the comparison word is 1 exactly when the entry is not zero. -/
theorem scale_elem [Facts] (a : FVec Ideal S1x1024 .f32) (i : S1x1024.Idx)
    (e : FloatOps.cmpf .une (a i)
        (broadcastInDim S1x1024 ![] Facts.bcast_S_S1x1024 (constant (F := Ideal) S_ .f32 0x00000000#32) i) = 1#1) :
    a i ≠ 0 := by
  rw [StableHlo.Predicate.bcast_scalar _ Facts.h_S_] at e
  have hz : constant (F := Ideal) S_ .f32 0x00000000#32 (Shape.Idx.first Facts.h_S_) = (0 : EReal) := by
    show Ideal.ofBits .f32 0x00000000#32 = 0
    simp [Ideal.ofBits, Ideal.ieee]
  rw [hz] at e
  change BitVec.ofBool (decide (a i ≠ 0)) = 1#1 at e
  exact of_decide_eq_true ((StableHlo.Predicate.ofBool_eq_one_iff _).1 e)

/-- The precondition gives the range of every index word and that no scale entry is zero. -/
theorem of_pre [Facts] (a0 : FVec Ideal S32768x1024 .f32) (a1 a2 : IVec S4096 32)
    (a3 a4 : FVec Ideal S1x1024 .f32) (a5 : FVec Ideal S1024x4096 .f32) (a6 : FVec Ideal S1024x1024 .f32)
    (a7 a8 : FVec Ideal S1024 .f32)
    (h : Cert.Pre_finite_inputs.fn (F := Ideal) a0 a1 a2 a3 a4 a5 a6 a7 a8 = fun _ => 1#1) :
    (∀ p : Fin 4096, -1024 ≤ (a1 (ix1 p)).toInt ∧ (a1 (ix1 p)).toInt < 1024)
    ∧ (∀ p : Fin 4096, -1024 ≤ (a2 (ix1 p)).toInt ∧ (a2 (ix1 p)).toInt < 1024)
    ∧ (∀ k : Fin 1024, a3 (ix2 (0 : Fin 1) k) ≠ 0) := by
  have h0 := congrFun h ix0
  dsimp only [fn, fn_part1, fn_part2, fn_part3] at h0
  obtain ⟨h47, h50⟩ := IntOp.andi_eq_one.1 h0
  obtain ⟨h40, h46⟩ := IntOp.andi_eq_one.1 h47
  obtain ⟨-, h39⟩ := IntOp.andi_eq_one.1 h40
  refine ⟨fun p => ?_, fun p => ?_, fun k => ?_⟩
  · exact range_elem a1 (ix1 p) (Host.reduce_andi_all _ _ _ _ _ h39 (ix1 p))
  · exact range_elem a2 (ix1 p) (Host.reduce_andi_all _ _ _ _ _ h46 (ix1 p))
  · exact scale_elem a3 (ix2 (0 : Fin 1) k) (Host.reduce_andi_all _ _ _ _ _ h50 (ix2 (0 : Fin 1) k))

/-- The wrap of a word of [-1024, 1024): a negative word moves up by 1024, so the result lies in
    [0, 1023], and the two bounds tests on it both say 1. -/
theorem wrap_in_range (i : BitVec 32) (h : -1024 ≤ i.toInt ∧ i.toInt < 1024) :
    let w := Scalar.select (IntOp.cmpi .slt i 0#32) (IntOp.addi i 1024#32) i
    IntOp.cmpi .sge w 0#32 = 1#1 ∧ IntOp.cmpi .sle w 1023#32 = 1#1 ∧ 0 ≤ w.toInt ∧ w.toInt ≤ 1023 := by
  intro w
  have key : 0 ≤ w.toInt ∧ w.toInt ≤ 1023 := by
    by_cases hc : IntOp.cmpi .slt i 0#32 = 1#1
    · have hw : w = IntOp.addi i 1024#32 := if_pos hc
      have hneg : i.toInt < 0 := by simpa using IntOp.cmpi_slt.1 hc
      rw [hw, IntOp.addi, BitVec.toInt_add, toInt_1024]
      rw [Int.bmod_eq_of_le (by omega) (by omega)]
      omega
    · have hw : w = i := if_neg hc
      have hnn : ¬ i.toInt < (0#32 : BitVec 32).toInt := fun hlt => hc (IntOp.cmpi_slt.2 hlt)
      have h00 : (0#32 : BitVec 32).toInt = 0 := by decide
      rw [hw]
      omega
  refine ⟨IntOp.cmpi_sge.2 ?_, IntOp.cmpi_sle.2 ?_, key.1, key.2⟩
  · rw [show (0#32 : BitVec 32).toInt = 0 by decide]; exact key.1
  · rw [show (1023#32 : BitVec 32).toInt = 1023 by decide]; exact key.2

end Cert.PreDecode

end
-- ==== Proof.HostTables.lean ====
/-
  The four small per-pair tables the wrapper gathers before the kernel runs: for each pair position p the
  translation and the reciprocal scale at the pair's first and second feature columns. Each is a rank-1 take
  with fill: the index word is wrapped once by the axis length when negative, a bounds mask tests the wrapped
  word against [0, 1023], the gather reads the table at the wrapped word clamped into the axis, and the mask
  selects between the gathered element and a fill constant. Where the wrapped word is in range the mask is 1
  and the result is the table at the column of the wrapped word. The take is proved once over an abstract table
  and an abstract index array and instantiated four times.
-/
import proofs.«402356_j54820962566348_3_alg».proof.Proof.Gen.KernelIdeal.Frame
import proofs.«402356_j54820962566348_3_alg».proof.Proof.Spec
import Idealize.ShloMosaic.Lib.StableHlo.Run
import Idealize.ShloMosaic.Lib.StableHlo.Predicate
import Idealize.ShloMosaic.Lib.ValueIdx
import Idealize.ShloMosaic.Lib.Pipeline.Value
import Idealize.ShloMosaic.PureOps.Ideal

set_option maxRecDepth 16384

noncomputable section

namespace Cert.KernelIdeal.HostTables

open Cert.KernelIdeal Cert.KernelIdeal.Gen
open Idealize.ShloMosaic Idealize.ShloMosaic.TcCoe Idealize.SL.Sem Idealize.ShloMosaic.StableHlo
open Idealize.ShloMosaic.ValueIdx

/-! ## Three general facts -/

/-- The rank-1 index at a coordinate, in its two spellings. -/
theorem ofFin_eq_ix1 {n : Nat} (k : Fin n) : Shape.Idx.ofFin k = ix1 k := by
  funext d
  match d with
  | ⟨0, _⟩ => rfl

/-- A left fold by `and` from 1 over one-bit words that are all 1 is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    refine foldl_andi_one f l _ ?_ (fun n hn => hl n (List.mem_cons_of_mem _ hn))
    rw [h, hl a List.mem_cons_self]
    decide

/-- A reduction by `and` from the constant 1 is 1 at a result index all of whose operand elements are 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i : s.Idx, h.drop i = j → x i = 1#1) : Host.reduce IntOp.andi x init h hu j = 1#1 := by
  rw [Host.reduce_eq_foldl]
  refine foldl_andi_one x _ _ hinit (fun i hi => hx i ?_)
  have := (List.mem_filter.1 hi).2
  simpa using this

/-! ## The take with fill, over an abstract table and index array -/

section Take

variable (table : S1024.Idx → EReal) (idx : S4096.Idx → BitVec 32)

/-- The index words, a negative one wrapped by the axis length. -/
def wrapped : IVec S4096 32 :=
  select (cmpi .slt idx (broadcastInDim S4096 ![] bcast_S_S4096 (constantI S_ 32 0#32)))
    (addi idx (broadcastInDim S4096 ![] bcast_S_S4096 (constantI S_ 32 1024#32))) idx

/-- The wrapped words as a column of start indices. -/
def starts : IVec S4096x1 32 := broadcastInDim S4096x1 ![0] bcast_S4096_S4096x1_0 (wrapped idx)

/-- The bounds mask: 1 where the wrapped word lies in [0, 1023]. -/
def inRange : IVec S4096 1 :=
  Host.reduce IntOp.andi
    (andi
      (cmpi .sge (starts idx) (broadcastInDim S4096x1 ![] bcast_S_S4096x1 (constantI S_ 32 0#32)))
      (cmpi .sle (starts idx)
        (broadcastInDim S4096x1 ![0, 1] bcast_S1x1_S4096x1_0_1
          (broadcastInDim S1x1 ![1] bcast_S1_S1x1_1 (constantI S1 32 1023#32)))))
    (constantI S_ 1 1#1) reducesTo_S4096x1_S4096_d1 h_S_

/-- The take with fill, laid out as a [1, 4096] row. -/
def takeFill : S1x4096.Idx → EReal :=
  shapeCast S1x4096
    (select (inRange idx)
      (Host.gather gather_S1024_S4096x1_S4096_n_0_n_n_0_1_1 table (starts idx))
      (broadcastInDim S4096 ![] bcast_S_S4096 (constant (F := Ideal) S_ .f32 0x7FC00000#32)))
    shapeCasts_S4096_S1x4096

/-- The wrapped word at a position is the wrap of the index word there. -/
theorem wrapped_apply (p : Fin 4096) : wrapped idx (ix1 p) = Cert.Spec.wrap (idx (ix1 p)) := rfl

/-- The start index of position p is the wrapped word at p. -/
theorem starts_apply (p : Fin 4096) : starts idx (Predicate.ixP p) = Cert.Spec.wrap (idx (ix1 p)) := by
  unfold starts
  rw [Predicate.bcast_col1, ofFin_eq_ix1, wrapped_apply]

/-- Where the wrapped word is in range the mask is 1. -/
theorem inRange_apply (p : Fin 4096)
    (hge : IntOp.cmpi .sge (Cert.Spec.wrap (idx (ix1 p))) 0#32 = 1#1)
    (hle : IntOp.cmpi .sle (Cert.Spec.wrap (idx (ix1 p))) 1023#32 = 1#1) : inRange idx (ix1 p) = 1#1 := by
  unfold inRange
  refine reduce_andi_one _ _ _ _ _ rfl (fun i hi => ?_)
  -- the one operand index that reduces into position p is (p, 0)
  have hi0 : i 0 = p := by
    have hv : (reducesTo_S4096x1_S4096_d1.drop i 0 : Nat) = i 0 :=
      Shape.ReducesTo.drop_apply_val reducesTo_S4096x1_S4096_d1 i 0
    rw [hi] at hv
    exact Fin.ext hv.symm
  have hi : i = Predicate.ixP p := by
    funext b
    match b with
    | ⟨0, _⟩ => exact hi0
    | ⟨1, _⟩ => exact Subsingleton.elim (α := Fin 1) _ _
  subst hi
  show IntOp.andi (IntOp.cmpi .sge (starts idx (Predicate.ixP p)) 0#32)
      (IntOp.cmpi .sle (starts idx (Predicate.ixP p)) 1023#32) = 1#1
  rw [starts_apply, hge, hle]
  decide

/-- THE TAKE: where the wrapped word is in range, position p of the row is the table at the wrapped word's column. -/
theorem takeFill_apply (p : Fin 4096)
    (hge : IntOp.cmpi .sge (Cert.Spec.wrap (idx (ix1 p))) 0#32 = 1#1)
    (hle : IntOp.cmpi .sle (Cert.Spec.wrap (idx (ix1 p))) 1023#32 = 1#1) :
    takeFill table idx (ix2 (0 : Fin 1) p) = table (ix1 (Cert.Spec.col (Cert.Spec.wrap (idx (ix1 p))))) := by
  unfold takeFill
  rw [shapeCast_apply _ _ (ix2 (0 : Fin 1) p) (ix1 p) (by rw [Shape.rowMajor_val_one, Shape.rowMajor_val_two]; show p.val = 0 * 4096 + p.val; omega)]
  rw [select_apply, inRange_apply idx p hge hle, select_one]
  have hg := Predicate.gather_take gather_S1024_S4096x1_S4096_n_0_n_n_0_1_1 rfl rfl rfl rfl table (starts idx) p (by decide)
  rw [ofFin_eq_ix1 p] at hg
  rw [hg, ofFin_eq_ix1]
  refine congrArg table (congrArg ix1 (Fin.ext ?_))
  show min (starts idx (Predicate.ixP p)).toInt.toNat (1024 - 1) = min (Cert.Spec.wrap (idx (ix1 p))).toInt.toNat 1023
  rw [starts_apply]

end Take

/-! ## Two reshapes read at an index -/

/-- A [1, 1024] row reshaped to a vector reads, at k, the row at (0, k). -/
theorem vec_of_row {α : Type} (x : S1x1024.Idx → α) (k : Fin 1024) :
    shapeCast S1024 x shapeCasts_S1x1024_S1024 (ix1 k) = x (ix2 (0 : Fin 1) k) :=
  shapeCast_apply _ _ (ix1 k) (ix2 (0 : Fin 1) k)
    (by rw [Shape.rowMajor_val_one, Shape.rowMajor_val_two]; show 0 * 1024 + k.val = k.val; omega)

/-! ## The four tables -/

section Tables

variable (m : (ℓ : Loc nD τ sig) → Buf (Elt Ideal) ℓ)

/-- The two index arrays, the scale row and the translation row, as the program finds them at launch. -/
abbrev idxI (c : Dev nD) : S4096.Idx → BitVec 32 := m ((c : Thread nD τ).loc main_arg1)
abbrev idxJ (c : Dev nD) : S4096.Idx → BitVec 32 := m ((c : Thread nD τ).loc main_arg2)
abbrev scale (c : Dev nD) : S1x1024.Idx → EReal := m ((c : Thread nD τ).loc main_arg3)
abbrev trans (c : Dev nD) : S1x1024.Idx → EReal := m ((c : Thread nD τ).loc main_arg4)

/-- The translation row as a vector. -/
def transVec (c : Dev nD) : S1024.Idx → EReal := shapeCast S1024 (trans m c) shapeCasts_S1x1024_S1024

/-- The reciprocal of the scale row, as a vector: the constant word of 1 divided by each entry. -/
def rscaleVec (c : Dev nD) : S1024.Idx → EReal :=
  shapeCast S1024
    (Host.divf (broadcastInDim S1x1024 ![] bcast_S_S1x1024 (constant (F := Ideal) S_ .f32 0x3F800000#32)) (scale m c))
    shapeCasts_S1x1024_S1024

theorem transVec_apply (c : Dev nD) (k : Fin 1024) : transVec m c (ix1 k) = trans m c (ix2 (0 : Fin 1) k) :=
  vec_of_row _ k

theorem rscaleVec_apply (c : Dev nD) (k : Fin 1024) :
    rscaleVec m c (ix1 k) = Ideal.div (Ideal.ofBits .f32 0x3F800000#32) (scale m c (ix2 (0 : Fin 1) k)) := by
  unfold rscaleVec
  rw [vec_of_row]
  rfl

/-! The four buffers the region finds, each as the take with fill of its table by its index array. -/

set_option maxHeartbeats 4000000 in
theorem v4_term (c : Dev nD) : (V m c main_v4 : S1x4096.Idx → EReal) = takeFill (transVec m c) (idxI m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  simp only [TRef.toBuf, TRef.ofBuf, cast_eq]
  rfl

set_option maxHeartbeats 4000000 in
theorem v7_term (c : Dev nD) : (V m c main_v7 : S1x4096.Idx → EReal) = takeFill (rscaleVec m c) (idxI m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  simp only [TRef.toBuf, TRef.ofBuf, cast_eq]
  rfl

set_option maxHeartbeats 4000000 in
theorem v10_term (c : Dev nD) : (V m c main_v10 : S1x4096.Idx → EReal) = takeFill (transVec m c) (idxJ m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  simp only [TRef.toBuf, TRef.ofBuf, cast_eq]
  rfl

set_option maxHeartbeats 4000000 in
theorem v13_term (c : Dev nD) : (V m c main_v13 : S1x4096.Idx → EReal) = takeFill (rscaleVec m c) (idxJ m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  simp only [TRef.toBuf, TRef.ofBuf, cast_eq]
  rfl

/-- ti: the translation at the first column of pair p. -/
theorem ti_apply (c : Dev nD) (p : Fin 4096)
    (hge : IntOp.cmpi .sge (Cert.Spec.wrap (idxI m c (ix1 p))) 0#32 = 1#1)
    (hle : IntOp.cmpi .sle (Cert.Spec.wrap (idxI m c (ix1 p))) 1023#32 = 1#1) :
    (V m c main_v4 : S1x4096.Idx → EReal) (ix2 (0 : Fin 1) p)
      = trans m c (ix2 (0 : Fin 1) (Cert.Spec.col (Cert.Spec.wrap (idxI m c (ix1 p))))) := by
  rw [v4_term, takeFill_apply _ _ p hge hle, transVec_apply]

/-- si: the reciprocal scale at the first column of pair p. -/
theorem si_apply (c : Dev nD) (p : Fin 4096)
    (hge : IntOp.cmpi .sge (Cert.Spec.wrap (idxI m c (ix1 p))) 0#32 = 1#1)
    (hle : IntOp.cmpi .sle (Cert.Spec.wrap (idxI m c (ix1 p))) 1023#32 = 1#1) :
    (V m c main_v7 : S1x4096.Idx → EReal) (ix2 (0 : Fin 1) p)
      = Ideal.div (Ideal.ofBits .f32 0x3F800000#32)
          (scale m c (ix2 (0 : Fin 1) (Cert.Spec.col (Cert.Spec.wrap (idxI m c (ix1 p)))))) := by
  rw [v7_term, takeFill_apply _ _ p hge hle, rscaleVec_apply]

/-- tj: the translation at the second column of pair p. -/
theorem tj_apply (c : Dev nD) (p : Fin 4096)
    (hge : IntOp.cmpi .sge (Cert.Spec.wrap (idxJ m c (ix1 p))) 0#32 = 1#1)
    (hle : IntOp.cmpi .sle (Cert.Spec.wrap (idxJ m c (ix1 p))) 1023#32 = 1#1) :
    (V m c main_v10 : S1x4096.Idx → EReal) (ix2 (0 : Fin 1) p)
      = trans m c (ix2 (0 : Fin 1) (Cert.Spec.col (Cert.Spec.wrap (idxJ m c (ix1 p))))) := by
  rw [v10_term, takeFill_apply _ _ p hge hle, transVec_apply]

/-- sj: the reciprocal scale at the second column of pair p. -/
theorem sj_apply (c : Dev nD) (p : Fin 4096)
    (hge : IntOp.cmpi .sge (Cert.Spec.wrap (idxJ m c (ix1 p))) 0#32 = 1#1)
    (hle : IntOp.cmpi .sle (Cert.Spec.wrap (idxJ m c (ix1 p))) 1023#32 = 1#1) :
    (V m c main_v13 : S1x4096.Idx → EReal) (ix2 (0 : Fin 1) p)
      = Ideal.div (Ideal.ofBits .f32 0x3F800000#32)
          (scale m c (ix2 (0 : Fin 1) (Cert.Spec.col (Cert.Spec.wrap (idxJ m c (ix1 p)))))) := by
  rw [v13_term, takeFill_apply _ _ p hge hle, rscaleVec_apply]

end Tables

end Cert.KernelIdeal.HostTables

end
-- ==== Proof.LibGatherCols.lean ====
/-
  A stablehlo.gather that picks whole COLUMNS of a rank-2 operand, one start index per picked column
  (what x[:, idx] and jnp.take(x, idx, axis=1) lower to), read at an index.

  Operand [R, C], start indices an [n, 1] column, result [R, n]: offset axis 0 (the rows, taken whole), axis 1 of
  the operand collapsed and start-indexed, the index vector on axis 1 of the start indices. Result element (b, p)
  is the operand at row b and at the column that start index p names, read as a signed integer and clamped into
  [0, C - 1], as every gather clamps its start indices.
-/
import Idealize.ShloMosaic.PureOps.ShapeOps
import Idealize.ShloMosaic.Lib.ValueIdx

namespace Cert.LibGatherCols

open Idealize.ShloMosaic Idealize.ShloMosaic.ValueIdx

variable {α : Type} {R C n w : Nat}

/-- With the dimension numbers literal, result index (b, p) reads the operand at (b, clamp (idx[p])). -/
private theorem cols_operandIdx (wf) (idx : IVec ⟨2, ![n, 1]⟩ w) (b : Fin R) (p : Fin n) (hC : 0 < C) :
    (⟨[0], [1], [], [], [1], 1, ![R, 1], wf⟩ : GatherDims ⟨2, ![R, C]⟩ ⟨2, ![n, 1]⟩ ⟨2, ![R, n]⟩).operandIdx
        (ix2 b p) idx = ix2 b ⟨min (idx (ix2 p (0 : Fin 1))).toInt.toNat (C - 1), by omega⟩ := by
  funext a
  refine Fin.ext ?_
  show GatherDims.start _ (ix2 b p) idx a + GatherDims.batchCoord _ (ix2 b p) a + GatherDims.offCoord _ (ix2 b p) a = _
  rw [GatherDims.batchCoord_eq_zero _ _ _ List.not_mem_nil, Nat.add_zero]
  match a with
  | ⟨0, _⟩ =>
    have hs : GatherDims.start (⟨[0], [1], [], [], [1], 1, ![R, 1], wf⟩ :
        GatherDims ⟨2, ![R, C]⟩ ⟨2, ![n, 1]⟩ ⟨2, ![R, n]⟩) (ix2 b p) idx 0 = 0 := by
      unfold GatherDims.start; rw [dif_neg (by simp)]
    show GatherDims.start _ (ix2 b p) idx 0 + GatherDims.offCoord _ (ix2 b p) 0 = b.val
    rw [hs, Nat.zero_add]; rfl
  | ⟨1, _⟩ =>
    show GatherDims.start _ (ix2 b p) idx 1 + GatherDims.offCoord _ (ix2 b p) 1
      = min (idx (ix2 p (0 : Fin 1))).toInt.toNat (C - 1)
    rw [GatherDims.offCoord_eq_zero _ _ _ (fun h => ((GatherDims.mem_sKept _ _).mp h).1 (List.mem_singleton.mpr rfl)),
      Nat.add_zero]
    unfold GatherDims.start
    rw [dif_pos (List.mem_cons_self)]
    have hsi : GatherDims.siIdx (⟨[0], [1], [], [], [1], 1, ![R, 1], wf⟩ :
        GatherDims ⟨2, ![R, C]⟩ ⟨2, ![n, 1]⟩ ⟨2, ![R, n]⟩) (ix2 b p)
        ⟨List.idxOf (1 : Fin 2) [1], List.idxOf_lt_length_iff.2 List.mem_cons_self⟩ = ix2 p (0 : Fin 1) := by
      funext b'; refine Fin.ext ?_
      match b' with
      | ⟨0, _⟩ => rfl
      | ⟨1, _⟩ => rfl
    rw [hsi]
    rfl

/-- THE COLUMN GATHER READ AT (b, p): row b of the operand at start index p's column, signed and clamped. The
    hypotheses are the printed dimension numbers, each closed by rfl on a program's record. -/
theorem gather_cols (d : GatherDims ⟨2, ![R, C]⟩ ⟨2, ![n, 1]⟩ ⟨2, ![R, n]⟩)
    (hod : d.offsetDims = [0]) (hcs : d.collapsedSliceDims = [1]) (hob : d.operandBatchingDims = [])
    (hsb : d.startIndicesBatchingDims = []) (hsm : d.startIndexMap = [1]) (hiv : d.indexVectorDim = 1)
    (hss : d.sliceSizes = ![R, 1])
    (x : (⟨2, ![R, C]⟩ : Shape).Idx → α) (idx : IVec ⟨2, ![n, 1]⟩ w) (b : Fin R) (p : Fin n) (hC : 0 < C) :
    Host.gather d x idx (ix2 b p) = x (ix2 b ⟨min (idx (ix2 p (0 : Fin 1))).toInt.toNat (C - 1), by omega⟩) := by
  obtain ⟨od, cs, ob, sb, sm, iv, ss, wf⟩ := d
  dsimp only at hod hcs hob hsb hsm hiv hss
  subst hod hcs hob hsb hsm hiv hss
  unfold Host.gather
  rw [cols_operandIdx wf idx b p hC]

end Cert.LibGatherCols
-- ==== Proof.HostGather.lean ====
/-
  The two gathered inputs of the pallas_call, read at an index.

  @main forms xi = take(x, idx_i, axis = 1) and xj = take(x, idx_j, axis = 1), each cast to bf16. A take with
  fill mode wraps a negative index once by the axis length, gathers whole columns of x at the wrapped index (the
  gather clamps its start index into the axis), and selects NaN wherever the wrapped index lies outside [0, 1023].
  When the wrapped index of pair position p is inside that range, the element at (b, p) is x at row b and at the
  column of the wrapped index; at the ideal instance the cast to bf16 is the identity.

  One lemma is stated over an abstract operand and an abstract index vector and is used for both inputs.
-/
import proofs.«402356_j54820962566348_3_alg».proof.Proof.Gen.KernelIdeal.Frame
import proofs.«402356_j54820962566348_3_alg».proof.Proof.Spec
import proofs.«402356_j54820962566348_3_alg».proof.Proof.LibGatherCols
import Idealize.ShloMosaic.Lib.StableHlo.Run
import Idealize.ShloMosaic.Lib.StableHlo.Predicate
import Idealize.ShloMosaic.Lib.ValueIdx
import Idealize.ShloMosaic.Lib.Pipeline.Value
import Idealize.ShloMosaic.PureOps.Ideal
import Idealize.ShloMosaic.PureOps.Reduce

set_option maxRecDepth 16384

noncomputable section

namespace Cert.KernelIdeal.HostGather

open Cert.KernelIdeal Cert.KernelIdeal.Gen Idealize.ShloMosaic Idealize.ShloMosaic.TcCoe Idealize.SL.Sem
open Idealize.ShloMosaic.StableHlo Idealize.ShloMosaic.ValueIdx

/-! ## The take, over an abstract operand and index vector -/

/-- The index vector with each negative entry moved up by the axis length 1024. -/
def wrapVec (idx : IVec S4096 32) : IVec S4096 32 :=
  select (cmpi CmpIPredicate.slt idx (broadcastInDim S4096 ![] bcast_S_S4096 (constantI S_ 32 0#32)))
    (addi idx (broadcastInDim S4096 ![] bcast_S_S4096 (constantI S_ 32 1024#32))) idx

/-- The wrapped indices as the [4096, 1] column of start indices the gather takes. -/
def startCol (idx : IVec S4096 32) : IVec S4096x1 32 :=
  broadcastInDim S4096x1 ![0] bcast_S4096_S4096x1_0 (wrapVec idx)

/-- The bounds test 0 ≤ start ≤ 1023 on the column of start indices. -/
def boundsCol (idx : IVec S4096 32) : IVec S4096x1 1 :=
  andi
    (cmpi CmpIPredicate.sge (startCol idx) (broadcastInDim S4096x1 ![] bcast_S_S4096x1 (constantI S_ 32 0#32)))
    (cmpi CmpIPredicate.sle (startCol idx)
      (broadcastInDim S4096x1 ![0, 1] bcast_S1x1_S4096x1_0_1
        (broadcastInDim S1x1 ![1] bcast_S1_S1x1_1 (constantI S1 32 1023#32))))

/-- The bounds test reduced by and over the column's unit axis: one bit per pair position. -/
def inRange (idx : IVec S4096 32) : IVec S4096 1 :=
  Host.reduce IntOp.andi (boundsCol idx) (constantI S_ 1 1#1) reducesTo_S4096x1_S4096_d1 h_S_

/-- The take along axis 1 in fill mode, cast to bf16: the term @main computes for each of the two inputs. -/
def takeCols (x : FVec Ideal S32768x1024 .f32) (idx : IVec S4096 32) : FVec Ideal S32768x4096 .bf16 :=
  truncf FTy.bf16
    (select (broadcastInDim S32768x4096 ![1] bcast_S4096_S32768x4096_1 (inRange idx))
      (Host.gather gather_S32768x1024_S4096x1_S32768x4096_0_1_n_n_1_1_327681 x (startCol idx))
      (broadcastInDim S32768x4096 ![] bcast_S_S32768x4096 (constant S_ FTy.f32 2143289344#32)))
    bitsLt_bf16_f32

/-- The wrapped index vector at a position is the wrap of the index there: the two scalar broadcasts read their
    constants everywhere. -/
theorem wrapVec_apply (idx : IVec S4096 32) (j : S4096.Idx) : wrapVec idx j = Cert.Spec.wrap (idx j) := rfl

/-- The start-index column at (p, 0) is the wrapped index of position p. -/
theorem startCol_apply (idx : IVec S4096 32) (p : Fin 4096) :
    startCol idx (ix2 p (0 : Fin 1)) = Cert.Spec.wrap (idx (ix1 p)) := by
  unfold startCol
  rw [broadcastInDim_apply ![0] bcast_S4096_S4096x1_0 (wrapVec idx) (ix2 p (0 : Fin 1)) (ix1 p)
    (fun a => by match a with | ⟨0, _⟩ => exact (if_neg (show ¬ (4096 : Nat) = 1 by decide)).symm)]
  exact wrapVec_apply idx (ix1 p)

/-- The bounds test at (p, 0), on the wrapped index of position p. -/
theorem boundsCol_apply (idx : IVec S4096 32) (p : Fin 4096) :
    boundsCol idx (ix2 p (0 : Fin 1))
      = IntOp.andi (IntOp.cmpi CmpIPredicate.sge (Cert.Spec.wrap (idx (ix1 p))) 0#32)
          (IntOp.cmpi CmpIPredicate.sle (Cert.Spec.wrap (idx (ix1 p))) 1023#32) := by
  show IntOp.andi (IntOp.cmpi CmpIPredicate.sge (startCol idx (ix2 p (0 : Fin 1))) 0#32)
      (IntOp.cmpi CmpIPredicate.sle (startCol idx (ix2 p (0 : Fin 1))) 1023#32) = _
  rw [startCol_apply]

/-- A fold over the one coordinate of a unit axis combines the value there with the initial value. -/
theorem fold_univ_fin_one {α : Type} (op : α → α → α) [Std.Commutative op] [Std.Associative op] (init : α)
    (f : Fin 1 → α) : (Finset.univ : Finset (Fin 1)).fold op init f = op (f 0) init := by
  rw [Finset.univ_unique, Finset.fold_singleton]
  rfl

/-- The column's unit axis has the one coordinate 0, so the reduction by and at position p is the bounds test at
    (p, 0) combined with the initial 1. -/
theorem inRange_apply (idx : IVec S4096 32) (p : Fin 4096) :
    inRange idx (ix1 p) = IntOp.andi (boundsCol idx (ix2 p (0 : Fin 1))) 1#1 := by
  have hR : S4096x1.Reduces [1] S4096 := by decide
  have hl : hR.lift (ix1 p) (0 : Fin 1) = ix2 p (0 : Fin 1) := by
    funext c
    match c with
    | ⟨0, _⟩ => rfl
    | ⟨1, _⟩ => rfl
  unfold inRange
  rw [Host.reduce_eq_fold_single IntOp.andi (boundsCol idx) (constantI S_ 1 1#1) reducesTo_S4096x1_S4096_d1 hR h_S_
    (ix1 p)]
  refine (fold_univ_fin_one IntOp.andi 1#1 (boundsCol idx ∘ hR.lift (ix1 p))).trans ?_
  exact congrArg (fun t => IntOp.andi (boundsCol idx t) 1#1) hl

/-- A [4096] vector laid along axis 1 of the [32768, 4096] rectangle (constant down each column) reads, at (b, p),
    the vector at p. -/
theorem maskRow_apply {α : Type} (v : S4096.Idx → α) (b : Fin 32768) (p : Fin 4096) :
    broadcastInDim S32768x4096 ![1] bcast_S4096_S32768x4096_1 v (ix2 b p) = v (ix1 p) :=
  broadcastInDim_apply ![1] bcast_S4096_S32768x4096_1 v (ix2 b p) (ix1 p)
    (fun a => by match a with | ⟨0, _⟩ => exact (if_neg (show ¬ (4096 : Nat) = 1 by decide)).symm)

/-- THE TAKE READ AT (b, p). When the wrapped index of position p lies in [0, 1023] the bounds mask is 1 there, the
    select returns the gathered element, and the gather reads row b of the operand at the column of the wrapped
    index. -/
theorem takeCols_apply (x : FVec Ideal S32768x1024 .f32) (idx : IVec S4096 32) (b : Fin 32768) (p : Fin 4096)
    (hge : IntOp.cmpi CmpIPredicate.sge (Cert.Spec.wrap (idx (ix1 p))) 0#32 = 1#1)
    (hle : IntOp.cmpi CmpIPredicate.sle (Cert.Spec.wrap (idx (ix1 p))) 1023#32 = 1#1) :
    takeCols x idx (ix2 b p) = x (ix2 b (Cert.Spec.col (Cert.Spec.wrap (idx (ix1 p))))) := by
  have hm : broadcastInDim S32768x4096 ![1] bcast_S4096_S32768x4096_1 (inRange idx) (ix2 b p) = 1#1 := by
    rw [maskRow_apply, inRange_apply, boundsCol_apply, hge, hle]
    rfl
  show Scalar.select (broadcastInDim S32768x4096 ![1] bcast_S4096_S32768x4096_1 (inRange idx) (ix2 b p))
      (Host.gather gather_S32768x1024_S4096x1_S32768x4096_0_1_n_n_1_1_327681 x (startCol idx) (ix2 b p)) _ = _
  rw [hm, select_one,
    Cert.LibGatherCols.gather_cols gather_S32768x1024_S4096x1_S32768x4096_0_1_n_n_1_1_327681 rfl rfl rfl rfl rfl rfl rfl
      x (startCol idx) b p (by decide)]
  refine congrArg (fun k => x (ix2 b k)) (Fin.ext ?_)
  show min (startCol idx (ix2 p (0 : Fin 1))).toInt.toNat (1024 - 1)
    = min (Cert.Spec.wrap (idx (ix1 p))).toInt.toNat 1023
  rw [startCol_apply]

/-! ## The two inputs of the pallas_call -/

variable (m : (ℓ : Loc nD τ sig) → Buf (Elt Ideal) ℓ)

set_option maxHeartbeats 4000000 in
/-- xi_bf as @main leaves it: the take of x at idx_i. -/
theorem v15_term (c : Dev nD) :
    (V m c main_v15 : S32768x4096.Idx → EReal)
      = takeCols (m ((c : Thread nD τ).loc main_arg0)) (m ((c : Thread nD τ).loc main_arg1)) := by
  dsimp only [Gen.V]
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results_simp
  simp only [TRef.toBuf, TRef.ofBuf, cast_eq]
  rfl

set_option maxHeartbeats 4000000 in
/-- xj_bf as @main leaves it: the take of x at idx_j. -/
theorem v17_term (c : Dev nD) :
    (V m c main_v17 : S32768x4096.Idx → EReal)
      = takeCols (m ((c : Thread nD τ).loc main_arg0)) (m ((c : Thread nD τ).loc main_arg2)) := by
  dsimp only [Gen.V]
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results_simp
  simp only [TRef.toBuf, TRef.ofBuf, cast_eq]
  rfl

/-- xi_bf at (b, p): x at row b and the column of pair p's wrapped first index. -/
theorem xi_apply (c : Dev nD) (b : Fin 32768) (p : Fin 4096)
    (hge : IntOp.cmpi CmpIPredicate.sge
      (Cert.Spec.wrap ((m ((c : Thread nD τ).loc main_arg1) : S4096.Idx → BitVec 32) (ix1 p))) 0#32 = 1#1)
    (hle : IntOp.cmpi CmpIPredicate.sle
      (Cert.Spec.wrap ((m ((c : Thread nD τ).loc main_arg1) : S4096.Idx → BitVec 32) (ix1 p))) 1023#32 = 1#1) :
    (V m c main_v15 : S32768x4096.Idx → EReal) (ix2 b p)
      = (m ((c : Thread nD τ).loc main_arg0) : S32768x1024.Idx → EReal)
          (ix2 b (Cert.Spec.col (Cert.Spec.wrap ((m ((c : Thread nD τ).loc main_arg1) : S4096.Idx → BitVec 32) (ix1 p))))) := by
  rw [v15_term]
  exact takeCols_apply _ _ b p hge hle

/-- xj_bf at (b, p): x at row b and the column of pair p's wrapped second index. -/
theorem xj_apply (c : Dev nD) (b : Fin 32768) (p : Fin 4096)
    (hge : IntOp.cmpi CmpIPredicate.sge
      (Cert.Spec.wrap ((m ((c : Thread nD τ).loc main_arg2) : S4096.Idx → BitVec 32) (ix1 p))) 0#32 = 1#1)
    (hle : IntOp.cmpi CmpIPredicate.sle
      (Cert.Spec.wrap ((m ((c : Thread nD τ).loc main_arg2) : S4096.Idx → BitVec 32) (ix1 p))) 1023#32 = 1#1) :
    (V m c main_v17 : S32768x4096.Idx → EReal) (ix2 b p)
      = (m ((c : Thread nD τ).loc main_arg0) : S32768x1024.Idx → EReal)
          (ix2 b (Cert.Spec.col (Cert.Spec.wrap ((m ((c : Thread nD τ).loc main_arg2) : S4096.Idx → BitVec 32) (ix1 p))))) := by
  rw [v17_term]
  exact takeCols_apply _ _ b p hge hle

end Cert.KernelIdeal.HostGather

end
-- ==== Proof.HostWeights.lean ====
import proofs.«402356_j54820962566348_3_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal

/-!
# The weight operands of the fused call, read at an index

Three of the call's operands are layout images of the arguments alone:
gamma2 = gamma.reshape(1, 1024), beta2 = beta.reshape(1, 1024) and
w_T = concatenate([transpose(lw), transpose(w1)], axis 0), the two transposes narrowed to bf16.
At the idealized arithmetic every float format is the extended reals, so the narrowing is the identity and each
operand, read at an index, is an argument read at the index the layout sends it to:
gamma2[0, o] = gamma[o], beta2[0, o] = beta[o], w_T[k, o] = lw[o, k] for k < 4096, and
w_T[4096 + k, o] = w1[o, k] for k < 1024.
-/

set_option maxRecDepth 16384

noncomputable section

namespace Cert.KernelIdeal.HostWeights

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 4000000 in
/-- gamma2 = gamma.reshape(1, 1024) at (0, o) is gamma[o]: the two indices have the same row-major position. -/
theorem gamma_apply (c : Dev nD) (o : Fin 1024) :
    (V m c main_v23 : S1x1024.Idx → EReal) (ix2 (0 : Fin 1) o) = m ((c : Thread nD τ).loc main_arg7) (ix1 o) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  exact shapeCast_a_1a_apply _ _ _ _

set_option maxHeartbeats 4000000 in
/-- beta2 = beta.reshape(1, 1024) at (0, o) is beta[o]. -/
theorem beta_apply (c : Dev nD) (o : Fin 1024) :
    (V m c main_v24 : S1x1024.Idx → EReal) (ix2 (0 : Fin 1) o) = m ((c : Thread nD τ).loc main_arg8) (ix1 o) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  exact shapeCast_a_1a_apply _ _ _ _

set_option maxHeartbeats 4000000 in
/-- w_T at row k < 4096, column o, is lw[o, k]: the row falls in the first piece of the concatenation, the
    transpose of lw, whose narrowing to bf16 is the identity at the idealized arithmetic. -/
theorem wT_top (c : Dev nD) (k : Fin 4096) (o : Fin 1024) :
    (V m c main_v22 : S5120x1024.Idx → EReal) (ix2 (⟨k.val, by omega⟩ : Fin 5120) o)
      = m ((c : Thread nD τ).loc main_arg5) (ix2 o k) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rw [concatenate_pair_apply_left (s₁ := S4096x1024) (s₂ := S1024x1024) (0 : Fin S5120x1024.rank) _ _ _ _ rfl (ix2 k o)
    (fun b => match b with | ⟨0, _⟩ => rfl | ⟨1, _⟩ => rfl)]
  exact transpose_ix2_apply _ _ k o

set_option maxHeartbeats 4000000 in
/-- w_T at row 4096 + k, k < 1024, column o, is w1[o, k]: the row falls in the second piece, the transpose of w1,
    at the row the first piece's extent less. -/
theorem wT_bot (c : Dev nD) (k : Fin 1024) (o : Fin 1024) :
    (V m c main_v22 : S5120x1024.Idx → EReal) (ix2 (⟨4096 + k.val, by omega⟩ : Fin 5120) o)
      = m ((c : Thread nD τ).loc main_arg6) (ix2 o k) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rw [concatenate_pair_apply_right (s₁ := S4096x1024) (s₂ := S1024x1024) (0 : Fin S5120x1024.rank) _ _ _ _ rfl rfl (ix2 k o)
    (fun b hb => match b, hb with | ⟨0, _⟩, hb => absurd rfl hb | ⟨1, _⟩, _ => rfl)
    (by show k.val + 4096 = 4096 + k.val; omega)]
  exact transpose_ix2_apply _ _ k o

end Cert.KernelIdeal.HostWeights

end
-- ==== Proof.Payload.lean ====
/-
  The kernel body's arithmetic read at an index, at the extended reals (every float format change is the identity).

  The block one grid point stores is a layer normalisation of the row
    c r o = sum over p of pp r p * W (p, o)  +  sum over k of x0 (r, k) * W (4096 + k, o),
    pp r p = ((x1 (r, p) - x3 (0, p)) * x4 (0, p)) * ((x2 (r, p) - x5 (0, p)) * x6 (0, p)),
  with mean = (sum of the row) / 1024, variance = (sum of squared deviations) / 1024 and
  result = (c - mean) * rsqrt (variance + eps) * x7 + x8.

  The proof reads each operation of the body at an index (r, o): the pointwise operations are the scalar operation at
  that index by definition; a row broadcast [1, n] -> [m, n] reads row 0, a column broadcast [m, 1] -> [m, n] reads
  column 0, the cast [m] -> [m, 1] reads the vector; a lane sum is the sum over the row's coordinates; each matrix
  product into the zero accumulator is the sum over the contraction coordinate of the operands' products.
-/
import proofs.«402356_j54820962566348_3_alg».proof.Proof.Body
import proofs.«402356_j54820962566348_3_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Payload

open Cert.KernelIdeal Cert.KernelIdeal.Gen Idealize.ShloMosaic Idealize.ShloMosaic.ValueIdx

/-! ## The pair products and the raw features at an index -/

/-- The pair product block at (r, p): the two translated and scaled features, multiplied. -/
theorem pay2_apply (x1 x2 : FVec Ideal S256x4096 .bf16) (x3 x4 x5 x6 : FVec Ideal S1x4096 .f32) (r : Fin 256) (p : Fin 4096) :
    k0_pay2 (F := Ideal) x1 x2 x3 x4 x5 x6 (ix2 r p)
      = (((x1 (ix2 r p) - x3 (ix2 (0 : Fin 1) p)) * x4 (ix2 (0 : Fin 1) p))
          * ((x2 (ix2 r p) - x5 (ix2 (0 : Fin 1) p)) * x6 (ix2 (0 : Fin 1) p)) : EReal) := by
  unfold k0_pay2
  simp only [shapeCast_self]
  show ((x1 (ix2 r p) - broadcastTo S256x4096 x3 broadcasts_S1x4096_S256x4096 (ix2 r p))
          * broadcastTo S256x4096 x4 broadcasts_S1x4096_S256x4096 (ix2 r p))
        * ((x2 (ix2 r p) - broadcastTo S256x4096 x5 broadcasts_S1x4096_S256x4096 (ix2 r p))
          * broadcastTo S256x4096 x6 broadcasts_S1x4096_S256x4096 (ix2 r p)) = _
  rw [broadcastTo_1b_ab_apply x3, broadcastTo_1b_ab_apply x4, broadcastTo_1b_ab_apply x5, broadcastTo_1b_ab_apply x6]

/-- The raw feature block at (r, k): the format change is the identity. -/
theorem pay3_apply (x0 : FVec Ideal S256x1024 .f32) (r : Fin 256) (k : Fin 1024) :
    k0_pay3 (F := Ideal) x0 (ix2 r k) = x0 (ix2 r k) := rfl

/-! ## The weights read through the two rectangles of the scratch -/

/-- The top rectangle (rows 0 .. 4095) at (p, o) is the weights at (p, o). -/
theorem ld_top_apply (W : S5120x1024.Idx → EReal) (p : Fin 4096) (o : Fin 1024) :
    View.ld (Val := Elt Ideal) (e' := .bf16) W (Rect.unit (s := S5120x1024) ![0, 0] ![4096, 1024] inb_S5120x1024_S4096x1024_0_0) (ix2 p o)
      = W (ix2 (⟨p.val, by omega⟩ : Fin 5120) o) := by
  show W _ = W _
  refine congrArg W (funext fun a => Fin.ext ?_)
  match a with
  | ⟨0, _⟩ => show 0 + 1 * p.val = p.val; omega
  | ⟨1, _⟩ => show 0 + 1 * o.val = o.val; omega

/-- The bottom rectangle (rows 4096 .. 5119) at (k, o) is the weights at (4096 + k, o). -/
theorem ld_bot_apply (W : S5120x1024.Idx → EReal) (k : Fin 1024) (o : Fin 1024) :
    View.ld (Val := Elt Ideal) (e' := .bf16) W (Rect.unit (s := S5120x1024) ![4096, 0] ![1024, 1024] inb_S5120x1024_S1024x1024_4096_0) (ix2 k o)
      = W (ix2 (⟨4096 + k.val, by omega⟩ : Fin 5120) o) := by
  show W _ = W _
  refine congrArg W (funext fun a => Fin.ext ?_)
  match a with
  | ⟨0, _⟩ => show 4096 + 1 * k.val = 4096 + k.val; omega
  | ⟨1, _⟩ => show 0 + 1 * o.val = o.val; omega

/-! ## The two matrix products at an index -/

theorem lhs_top_0 (i : S256x1024.Idx) (q : dot_S256x4096_S4096x1024_S256x1024_1_0_0_1_n_n.contr.Idx) :
    (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
theorem lhs_top_1 (i : S256x1024.Idx) (q : dot_S256x4096_S4096x1024_S256x1024_1_0_0_1_n_n.contr.Idx) :
    (dot_S256x4096_S4096x1024_S256x1024_1_0_0_1_n_n.lhsIdx i q 1).val = (q ⟨0, by decide⟩).val :=
  dot_S256x4096_S4096x1024_S256x1024_1_0_0_1_n_n.lhsIdx_val_of_single rfl i q
theorem rhs_top_0 (i : S256x1024.Idx) (q : dot_S256x4096_S4096x1024_S256x1024_1_0_0_1_n_n.contr.Idx) :
    (dot_S256x4096_S4096x1024_S256x1024_1_0_0_1_n_n.rhsIdx i q 0).val = (q ⟨0, by decide⟩).val :=
  dot_S256x4096_S4096x1024_S256x1024_1_0_0_1_n_n.rhsIdx_val_of_single rfl i q
theorem rhs_top_1 (i : S256x1024.Idx) (q : dot_S256x4096_S4096x1024_S256x1024_1_0_0_1_n_n.contr.Idx) :
    (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- The [256, 4096] x [4096, 1024] product into the zero accumulator, at (r, o): the sum over the 4096 pairs. -/
theorem matmul_top_apply (a : FVec Ideal S256x4096 .bf16) (b : FVec Ideal S4096x1024 .bf16) (r : Fin 256) (o : Fin 1024) :
    matmul dot_S256x4096_S4096x1024_S256x1024_1_0_0_1_n_n none a b (constant (F := Ideal) S256x1024 .f32 0x00000000#32) (ix2 r o)
      = ∑ p : Fin 4096, (a (ix2 r p) * b (ix2 p o) : EReal) := by
  refine (Ideal.matmul_constant_zero_apply dot_S256x4096_S4096x1024_S256x1024_1_0_0_1_n_n none a b (ix2 r o)).trans ?_
  rw [← Equiv.sum_comp (ValueIdx.contrEquiv1 dot_S256x4096_S4096x1024_S256x1024_1_0_0_1_n_n 4096 rfl rfl).symm]
  refine Finset.sum_congr rfl fun k _ => ?_
  have hk := ValueIdx.contrEquiv1_symm_val dot_S256x4096_S4096x1024_S256x1024_1_0_0_1_n_n 4096 rfl rfl k
  have el : dot_S256x4096_S4096x1024_S256x1024_1_0_0_1_n_n.lhsIdx (ix2 r o) ((ValueIdx.contrEquiv1 dot_S256x4096_S4096x1024_S256x1024_1_0_0_1_n_n 4096 rfl rfl).symm k) = ix2 r k := funext fun ax => Fin.ext (by
    match ax with
    | ⟨0, _⟩ => exact lhs_top_0 _ _
    | ⟨1, _⟩ => exact (lhs_top_1 _ _).trans hk)
  have er : dot_S256x4096_S4096x1024_S256x1024_1_0_0_1_n_n.rhsIdx (ix2 r o) ((ValueIdx.contrEquiv1 dot_S256x4096_S4096x1024_S256x1024_1_0_0_1_n_n 4096 rfl rfl).symm k) = ix2 k o := funext fun ax => Fin.ext (by
    match ax with
    | ⟨0, _⟩ => exact (rhs_top_0 _ _).trans hk
    | ⟨1, _⟩ => exact rhs_top_1 _ _)
  rw [el, er]

theorem lhs_bot_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_bot_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_bot_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_bot_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The [256, 1024] x [1024, 1024] product into the zero accumulator, at (r, o): the sum over the 1024 features. -/
theorem matmul_bot_apply (a : FVec Ideal S256x1024 .bf16) (b : FVec Ideal S1024x1024 .bf16) (r : Fin 256) (o : Fin 1024) :
    matmul dot_S256x1024_S1024x1024_S256x1024_1_0_0_1_n_n none a b (constant (F := Ideal) S256x1024 .f32 0x00000000#32) (ix2 r o)
      = ∑ k : Fin 1024, (a (ix2 r k) * b (ix2 k o) : EReal) := by
  refine (Ideal.matmul_constant_zero_apply dot_S256x1024_S1024x1024_S256x1024_1_0_0_1_n_n none a b (ix2 r o)).trans ?_
  rw [← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 r o) ((ValueIdx.contrEquiv1 dot_S256x1024_S1024x1024_S256x1024_1_0_0_1_n_n 1024 rfl rfl).symm k) = ix2 r k := funext fun ax => Fin.ext (by
    match ax with
    | ⟨0, _⟩ => exact lhs_bot_0 _ _
    | ⟨1, _⟩ => exact (lhs_bot_1 _ _).trans hk)
  have er : dot_S256x1024_S1024x1024_S256x1024_1_0_0_1_n_n.rhsIdx (ix2 r o) ((ValueIdx.contrEquiv1 dot_S256x1024_S1024x1024_S256x1024_1_0_0_1_n_n 1024 rfl rfl).symm k) = ix2 k o := funext fun ax => Fin.ext (by
    match ax with
    | ⟨0, _⟩ => exact (rhs_bot_0 _ _).trans hk
    | ⟨1, _⟩ => exact rhs_bot_1 _ _)
  rw [el, er]

/-- The row before normalisation, as the body forms it: the sum of the two products. -/
def cMat (v27 : FVec Ideal S256x4096 .bf16) (v28 : FVec Ideal S256x1024 .bf16) (v32 : FVec Ideal S4096x1024 .bf16)
    (v33 : FVec Ideal S1024x1024 .bf16) : FVec Ideal S256x1024 .f32 :=
  addf (matmul dot_S256x4096_S4096x1024_S256x1024_1_0_0_1_n_n none v27 v32 (constant (F := Ideal) S256x1024 .f32 0x00000000#32))
    (matmul dot_S256x1024_S1024x1024_S256x1024_1_0_0_1_n_n none v28 v33 (constant (F := Ideal) S256x1024 .f32 0x00000000#32))

theorem cMat_apply (v27 : FVec Ideal S256x4096 .bf16) (v28 : FVec Ideal S256x1024 .bf16) (v32 : FVec Ideal S4096x1024 .bf16)
    (v33 : FVec Ideal S1024x1024 .bf16) (r : Fin 256) (o : Fin 1024) :
    cMat v27 v28 v32 v33 (ix2 r o)
      = (∑ p : Fin 4096, (v27 (ix2 r p) * v32 (ix2 p o) : EReal)) + (∑ k : Fin 1024, (v28 (ix2 r k) * v33 (ix2 k o) : EReal)) := by
  show (matmul dot_S256x4096_S4096x1024_S256x1024_1_0_0_1_n_n none v27 v32 (constant (F := Ideal) S256x1024 .f32 0x00000000#32) (ix2 r o) : EReal)
      + matmul dot_S256x1024_S1024x1024_S256x1024_1_0_0_1_n_n none v28 v33 (constant (F := Ideal) S256x1024 .f32 0x00000000#32) (ix2 r o) = _
  rw [matmul_top_apply, matmul_bot_apply]

/-! ## The layout operations of a sum that keeps its axis, at an index -/

/-- A [256] vector cast to [256, 1] reads, at (r, u), the vector at r. -/
theorem colCast_apply (v : FVec Ideal S256 .f32) (r : Fin 256) (u : Fin 1) :
    shapeCast S256x1 v shapeCasts_S256_S256x1 (ix2 r u) = v (ix1 r) :=
  shapeCast_apply v shapeCasts_S256_S256x1 _ _ (by
    have hu : u.val = 0 := by omega
    rw [Shape.rowMajor_val_two, Shape.rowMajor_val_one]
    show r.val = r.val * 1 + u.val
    rw [hu, Nat.mul_one, Nat.add_zero])

/-- A [256, 1] column broadcast to [256, 1024] reads, at (r, o), the column at (r, 0). -/
theorem colBcast_apply (v : FVec Ideal S256x1 .f32) (r : Fin 256) (o : Fin 1024) :
    broadcastTo S256x1024 v broadcasts_S256x1_S256x1024 (ix2 r o) = v (ix2 r (0 : Fin 1)) := by
  refine broadcastTo_apply v broadcasts_S256x1_S256x1024 (ix2 r o) (ix2 r (0 : Fin 1)) fun ax => ?_
  match ax with
  | ⟨0, _⟩ => rfl
  | ⟨1, _⟩ => rfl

/-- The lane sum of a [256, 1024] block at r: the sum over the row's 1024 coordinates. -/
theorem rowSum_apply (src : FVec Ideal S256x1024 .f32) (r : Fin 256) :
    multiReduction (F := Ideal) .add [1] S256 src 0x00000000#32 reduces_S256x1024_S256 (.inl rfl) rfl (ix1 r)
      = ∑ o : Fin 1024, (src (ix2 r o) : EReal) := by
  refine (Ideal.multiReduction_add_single src 0x00000000#32 reduces_S256x1024_S256 (.inl rfl) rfl (ix1 r)).trans ?_
  refine Finset.sum_congr rfl fun k _ => congrArg src (funext fun ax => Fin.ext ?_)
  match ax with
  | ⟨0, _⟩ => rfl
  | ⟨1, _⟩ => rfl

/-! ## The normalisation of a row, stage by stage -/

/-- The column of row means, as the body forms it. -/
def meanCol (c : FVec Ideal S256x1024 .f32) : FVec Ideal S256x1 .f32 :=
  divf (shapeCast S256x1 (multiReduction (F := Ideal) .add [1] S256 c 0x00000000#32 reduces_S256x1024_S256 (.inl rfl) rfl) shapeCasts_S256_S256x1)
    (broadcast S256x1 (Scalar.ofBits (F := Ideal) .f32 0x44800000#32))

/-- The deviations from the row means. -/
def devMat (c : FVec Ideal S256x1024 .f32) : FVec Ideal S256x1024 .f32 :=
  subf c (broadcastTo S256x1024 (meanCol c) broadcasts_S256x1_S256x1024)

/-- The column of row variances. -/
def varCol (c : FVec Ideal S256x1024 .f32) : FVec Ideal S256x1 .f32 :=
  divf (shapeCast S256x1 (multiReduction (F := Ideal) .add [1] S256 (mulf (devMat c) (devMat c)) 0x00000000#32 reduces_S256x1024_S256 (.inl rfl) rfl) shapeCasts_S256_S256x1)
    (broadcast S256x1 (Scalar.ofBits (F := Ideal) .f32 0x44800000#32))

/-- The column of reciprocal square roots of variance plus epsilon. -/
def rsCol (c : FVec Ideal S256x1024 .f32) : FVec Ideal S256x1 .f32 :=
  rsqrt (addf (varCol c) (broadcast S256x1 (Scalar.ofBits (F := Ideal) .f32 0x3727C5AC#32)))

/-- The normalised and affinely mapped block. -/
def lnTail (c : FVec Ideal S256x1024 .f32) (v48 v50 : FVec Ideal S1x1024 .f32) : FVec Ideal S256x1024 .f32 :=
  addf (mulf (mulf (devMat c) (broadcastTo S256x1024 (rsCol c) broadcasts_S256x1_S256x1024))
      (broadcastTo S256x1024 (shapeCast S1x1024 v48 shapeCasts_S1x1024_S1x1024) broadcasts_S1x1024_S256x1024))
    (broadcastTo S256x1024 (shapeCast S1x1024 v50 shapeCasts_S1x1024_S1x1024) broadcasts_S1x1024_S256x1024)

/-- The body's payload is the normalisation of the sum of the two products. -/
theorem pay1_eq (v27 : FVec Ideal S256x4096 .bf16) (v28 : FVec Ideal S256x1024 .bf16) (v32 : FVec Ideal S4096x1024 .bf16)
    (v33 : FVec Ideal S1024x1024 .bf16) (v48 v50 : FVec Ideal S1x1024 .f32) :
    k0_pay1 (F := Ideal) v27 v28 v32 v33 v48 v50 = lnTail (cMat v27 v28 v32 v33) v48 v50 := rfl

theorem meanCol_apply (c : FVec Ideal S256x1024 .f32) (r : Fin 256) (u : Fin 1) :
    meanCol c (ix2 r u) = Cert.Spec.mu (fun o => c (ix2 r o)) := by
  show Ideal.div (shapeCast S256x1 (multiReduction (F := Ideal) .add [1] S256 c 0x00000000#32 reduces_S256x1024_S256 (.inl rfl) rfl) shapeCasts_S256_S256x1 (ix2 r u))
      (Ideal.ofBits .f32 0x44800000#32) = _
  rw [colCast_apply, rowSum_apply]
  rfl

theorem devMat_apply (c : FVec Ideal S256x1024 .f32) (r : Fin 256) (o : Fin 1024) :
    devMat c (ix2 r o) = Cert.Spec.dev (fun o => c (ix2 r o)) o := by
  show (c (ix2 r o) - broadcastTo S256x1024 (meanCol c) broadcasts_S256x1_S256x1024 (ix2 r o) : EReal) = _
  rw [colBcast_apply, meanCol_apply]
  rfl

theorem varCol_apply (c : FVec Ideal S256x1024 .f32) (r : Fin 256) (u : Fin 1) :
    varCol c (ix2 r u) = Cert.Spec.var (fun o => c (ix2 r o)) := by
  show Ideal.div (shapeCast S256x1 (multiReduction (F := Ideal) .add [1] S256 (mulf (devMat c) (devMat c)) 0x00000000#32 reduces_S256x1024_S256 (.inl rfl) rfl) shapeCasts_S256_S256x1 (ix2 r u))
      (Ideal.ofBits .f32 0x44800000#32) = _
  rw [colCast_apply, rowSum_apply]
  unfold Cert.Spec.var
  refine congrArg (fun z => Ideal.div z Cert.Spec.n1024) (Finset.sum_congr rfl fun o _ => ?_)
  show (devMat c (ix2 r o) * devMat c (ix2 r o) : EReal) = _
  rw [devMat_apply]

theorem rsCol_apply (c : FVec Ideal S256x1024 .f32) (r : Fin 256) (u : Fin 1) :
    rsCol c (ix2 r u) = Ideal.rsqrt (Cert.Spec.var (fun o => c (ix2 r o)) + Cert.Spec.eps) := by
  show Ideal.rsqrt (varCol c (ix2 r u) + Ideal.ofBits .f32 0x3727C5AC#32) = _
  rw [varCol_apply]

/-- The normalised block at (r, o) is the layer normalisation of row r, at o. -/
theorem lnTail_apply (c : FVec Ideal S256x1024 .f32) (v48 v50 : FVec Ideal S1x1024 .f32) (r : Fin 256) (o : Fin 1024) :
    lnTail c v48 v50 (ix2 r o)
      = Cert.Spec.ln (fun o' => v48 (ix2 (0 : Fin 1) o')) (fun o' => v50 (ix2 (0 : Fin 1) o')) (fun o' => c (ix2 r o')) o := by
  unfold lnTail
  simp only [shapeCast_self]
  show (devMat c (ix2 r o) * broadcastTo S256x1024 (rsCol c) broadcasts_S256x1_S256x1024 (ix2 r o)
          * broadcastTo S256x1024 v48 broadcasts_S1x1024_S256x1024 (ix2 r o)
        + broadcastTo S256x1024 v50 broadcasts_S1x1024_S256x1024 (ix2 r o) : EReal) = _
  rw [colBcast_apply, broadcastTo_1b_ab_apply v48, broadcastTo_1b_ab_apply v50, devMat_apply, rsCol_apply]
  rfl

/-! ## The block one grid point stores, at an index -/

/-- THE STORED BLOCK AT (r, o): the layer normalisation, by x7 and x8, of the row whose entry at o' is the pair
    products against the first 4096 rows of the weights plus the raw features against the last 1024 rows. -/
theorem blockOf_apply
    (x0 : Vec Ideal S256x1024 .f32) (x1 x2 : Vec Ideal S256x4096 .bf16) (x3 x4 x5 x6 : Vec Ideal S1x4096 .f32)
    (x7 x8 : Vec Ideal S1x1024 .f32) (W : S5120x1024.Idx → Elt Ideal .bf16) (r : Fin 256) (o : Fin 1024) :
    Cert.KernelIdeal.Body.blockOf x0 x1 x2 x3 x4 x5 x6 x7 x8 W (ix2 r o)
      = Cert.Spec.ln (fun o' => x7 (ix2 (0 : Fin 1) o')) (fun o' => x8 (ix2 (0 : Fin 1) o'))
          (fun o' => (∑ p : Fin 4096, (((x1 (ix2 r p) - x3 (ix2 (0 : Fin 1) p)) * x4 (ix2 (0 : Fin 1) p)) * ((x2 (ix2 r p) - x5 (ix2 (0 : Fin 1) p)) * x6 (ix2 (0 : Fin 1) p)) : EReal) * W (ix2 (⟨p.val, by omega⟩ : Fin 5120) o'))
                   + (∑ k : Fin 1024, (x0 (ix2 r k) : EReal) * W (ix2 (⟨4096 + k.val, by omega⟩ : Fin 5120) o'))) o := by
  unfold Cert.KernelIdeal.Body.blockOf
  refine (congrFun (pay1_eq _ _ _ _ x7 x8) (ix2 r o)).trans ?_
  refine (lnTail_apply _ x7 x8 r o).trans ?_
  refine congrArg (fun row => Cert.Spec.ln (fun o' => x7 (ix2 (0 : Fin 1) o')) (fun o' => x8 (ix2 (0 : Fin 1) o')) row o) (funext fun o' => ?_)
  refine (cMat_apply _ _ _ _ r o').trans ?_
  refine congrArg₂ (· + ·) (Finset.sum_congr rfl fun p _ => ?_) (Finset.sum_congr rfl fun k _ => ?_)
  · rw [pay2_apply, ld_top_apply]
  · rw [pay3_apply, ld_bot_apply]

end Cert.KernelIdeal.Payload

end
-- ==== Proof.KValue.lean ====
import proofs.«402356_j54820962566348_3_alg».proof.Proof.Gen.KernelIdeal.Value
import proofs.«402356_j54820962566348_3_alg».proof.Proof.Body
import proofs.«402356_j54820962566348_3_alg».proof.Proof.Spec
import proofs.«402356_j54820962566348_3_alg».proof.Proof.RowLaw
import proofs.«402356_j54820962566348_3_alg».proof.Proof.PreDecode
import proofs.«402356_j54820962566348_3_alg».proof.Proof.HostTables
import proofs.«402356_j54820962566348_3_alg».proof.Proof.HostGather
import proofs.«402356_j54820962566348_3_alg».proof.Proof.HostWeights
import proofs.«402356_j54820962566348_3_alg».proof.Proof.Payload
import Idealize.ShloMosaic.PureOps.Ideal
import Idealize.ShloMosaic.PureOps.IdealRules
import Idealize.ShloMosaic.Lib.Pipeline.Value
import Idealize.ShloMosaic.Lib.ValueIdx

set_option maxRecDepth 16384
/-!
  The kernel's result array as a value: the array the run leaves is the specification's function of the argument
  arrays. Point t's block is rows 256 t .. 256 t + 255; its inputs are blocks of the arrays the host prepared before
  the call (the gathered columns, the gathered translations and reciprocal scales, gamma, beta, the transposed
  weights); the blocks of the 128 points tile the result.
-/
noncomputable section
namespace Cert.KernelIdeal.KValue
open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem tlt (t : Fin cfg0.N) : t.val < 128 := lt_of_lt_of_eq t.isLt (show cfg0.N = 128 from N_0)

/-- The global row that local row r of point t's blocks is. -/
abbrev grow (t : Fin cfg0.N) (r : Fin 256) : Fin 32768 := ⟨256 * t.val + r.val, by have := tlt t; omega⟩

/-! ## Each input block, read at an index, is its array as the region finds it at the block's place -/

theorem iblk0_apply (c : Dev nD) (t : Fin cfg0.N) (r : Fin 256) (k : Fin 1024) :
    (iblk m c 0 t : S256x1024.Idx → EReal) (ix2 r k) = (V m c main_arg0 : S32768x1024.Idx → EReal) (ix2 (grow t r) k) := by
  show V m c main_arg0 (((cfg0.win 0).blk t).view.emb (ix2 r k)) = _
  congr 1
  funext a; apply Fin.ext
  have e := idx_facts t
  match a with
  | ⟨0, _⟩ => show win0_0.index t (0 : Fin 2) * 256 + 1 * r.val = 256 * t.val + r.val; omega
  | ⟨1, _⟩ => show win0_0.index t (1 : Fin 2) * 1024 + 1 * k.val = k.val; omega

theorem iblk1_apply (c : Dev nD) (t : Fin cfg0.N) (r : Fin 256) (p : Fin 4096) :
    (iblk m c 1 t : S256x4096.Idx → EReal) (ix2 r p) = (V m c main_v15 : S32768x4096.Idx → EReal) (ix2 (grow t r) p) := by
  show V m c main_v15 (((cfg0.win 1).blk t).view.emb (ix2 r p)) = _
  congr 1
  funext a; apply Fin.ext
  have e := idx_facts t
  match a with
  | ⟨0, _⟩ => show win0_1.index t (0 : Fin 2) * 256 + 1 * r.val = 256 * t.val + r.val; omega
  | ⟨1, _⟩ => show win0_1.index t (1 : Fin 2) * 4096 + 1 * p.val = p.val; omega

theorem iblk2_apply (c : Dev nD) (t : Fin cfg0.N) (r : Fin 256) (p : Fin 4096) :
    (iblk m c 2 t : S256x4096.Idx → EReal) (ix2 r p) = (V m c main_v17 : S32768x4096.Idx → EReal) (ix2 (grow t r) p) := by
  show V m c main_v17 (((cfg0.win 2).blk t).view.emb (ix2 r p)) = _
  congr 1
  funext a; apply Fin.ext
  have e := idx_facts t
  match a with
  | ⟨0, _⟩ => show win0_2.index t (0 : Fin 2) * 256 + 1 * r.val = 256 * t.val + r.val; omega
  | ⟨1, _⟩ => show win0_2.index t (1 : Fin 2) * 4096 + 1 * p.val = p.val; omega

theorem iblk3_apply (c : Dev nD) (t : Fin cfg0.N) (p : Fin 4096) :
    (iblk m c 3 t : S1x4096.Idx → EReal) (ix2 (0 : Fin 1) p) = (V m c main_v4 : S1x4096.Idx → EReal) (ix2 (0 : Fin 1) p) := by
  show V m c main_v4 (((cfg0.win 3).blk t).view.emb (ix2 (0 : Fin 1) p)) = _
  congr 1
  funext a; apply Fin.ext
  have e := idx_facts t
  match a with
  | ⟨0, _⟩ => show win0_3.index t (0 : Fin 2) * 1 + 1 * 0 = 0; omega
  | ⟨1, _⟩ => show win0_3.index t (1 : Fin 2) * 4096 + 1 * p.val = p.val; omega

theorem iblk4_apply (c : Dev nD) (t : Fin cfg0.N) (p : Fin 4096) :
    (iblk m c 4 t : S1x4096.Idx → EReal) (ix2 (0 : Fin 1) p) = (V m c main_v7 : S1x4096.Idx → EReal) (ix2 (0 : Fin 1) p) := by
  show V m c main_v7 (((cfg0.win 4).blk t).view.emb (ix2 (0 : Fin 1) p)) = _
  congr 1
  funext a; apply Fin.ext
  have e := idx_facts t
  match a with
  | ⟨0, _⟩ => show win0_4.index t (0 : Fin 2) * 1 + 1 * 0 = 0; omega
  | ⟨1, _⟩ => show win0_4.index t (1 : Fin 2) * 4096 + 1 * p.val = p.val; omega

theorem iblk5_apply (c : Dev nD) (t : Fin cfg0.N) (p : Fin 4096) :
    (iblk m c 5 t : S1x4096.Idx → EReal) (ix2 (0 : Fin 1) p) = (V m c main_v10 : S1x4096.Idx → EReal) (ix2 (0 : Fin 1) p) := by
  show V m c main_v10 (((cfg0.win 5).blk t).view.emb (ix2 (0 : Fin 1) p)) = _
  congr 1
  funext a; apply Fin.ext
  have e := idx_facts t
  match a with
  | ⟨0, _⟩ => show win0_5.index t (0 : Fin 2) * 1 + 1 * 0 = 0; omega
  | ⟨1, _⟩ => show win0_5.index t (1 : Fin 2) * 4096 + 1 * p.val = p.val; omega

theorem iblk6_apply (c : Dev nD) (t : Fin cfg0.N) (p : Fin 4096) :
    (iblk m c 6 t : S1x4096.Idx → EReal) (ix2 (0 : Fin 1) p) = (V m c main_v13 : S1x4096.Idx → EReal) (ix2 (0 : Fin 1) p) := by
  show V m c main_v13 (((cfg0.win 6).blk t).view.emb (ix2 (0 : Fin 1) p)) = _
  congr 1
  funext a; apply Fin.ext
  have e := idx_facts t
  match a with
  | ⟨0, _⟩ => show win0_6.index t (0 : Fin 2) * 1 + 1 * 0 = 0; omega
  | ⟨1, _⟩ => show win0_6.index t (1 : Fin 2) * 4096 + 1 * p.val = p.val; omega

theorem iblk7_apply (c : Dev nD) (t : Fin cfg0.N) (p : Fin 1024) :
    (iblk m c 7 t : S1x1024.Idx → EReal) (ix2 (0 : Fin 1) p) = (V m c main_v23 : S1x1024.Idx → EReal) (ix2 (0 : Fin 1) p) := by
  show V m c main_v23 (((cfg0.win 7).blk t).view.emb (ix2 (0 : Fin 1) p)) = _
  congr 1
  funext a; apply Fin.ext
  have e := idx_facts t
  match a with
  | ⟨0, _⟩ => show win0_7.index t (0 : Fin 2) * 1 + 1 * 0 = 0; omega
  | ⟨1, _⟩ => show win0_7.index t (1 : Fin 2) * 1024 + 1 * p.val = p.val; omega

theorem iblk8_apply (c : Dev nD) (t : Fin cfg0.N) (p : Fin 1024) :
    (iblk m c 8 t : S1x1024.Idx → EReal) (ix2 (0 : Fin 1) p) = (V m c main_v24 : S1x1024.Idx → EReal) (ix2 (0 : Fin 1) p) := by
  show V m c main_v24 (((cfg0.win 8).blk t).view.emb (ix2 (0 : Fin 1) p)) = _
  congr 1
  funext a; apply Fin.ext
  have e := idx_facts t
  match a with
  | ⟨0, _⟩ => show win0_8.index t (0 : Fin 2) * 1 + 1 * 0 = 0; omega
  | ⟨1, _⟩ => show win0_8.index t (1 : Fin 2) * 1024 + 1 * p.val = p.val; omega

/-- The nine argument arrays as launched, at their literal types. -/
abbrev aX (c : Dev nD) : S32768x1024.Idx → EReal := m ((c : Thread nD τ).loc main_arg0)
abbrev aI (c : Dev nD) : S4096.Idx → BitVec 32 := m ((c : Thread nD τ).loc main_arg1)
abbrev aJ (c : Dev nD) : S4096.Idx → BitVec 32 := m ((c : Thread nD τ).loc main_arg2)
abbrev aS (c : Dev nD) : S1x1024.Idx → EReal := m ((c : Thread nD τ).loc main_arg3)
abbrev aT (c : Dev nD) : S1x1024.Idx → EReal := m ((c : Thread nD τ).loc main_arg4)
abbrev aLW (c : Dev nD) : S1024x4096.Idx → EReal := m ((c : Thread nD τ).loc main_arg5)
abbrev aW1 (c : Dev nD) : S1024x1024.Idx → EReal := m ((c : Thread nD τ).loc main_arg6)
abbrev aG (c : Dev nD) : S1024.Idx → EReal := m ((c : Thread nD τ).loc main_arg7)
abbrev aB (c : Dev nD) : S1024.Idx → EReal := m ((c : Thread nD τ).loc main_arg8)

/-- The specification's array of the arguments as launched. -/
abbrev Gm (c : Dev nD) : S32768x1024.Idx → EReal :=
  Cert.Spec.G (aX m c) (aI m c) (aJ m c) (aS m c) (aT m c) (aLW m c) (aW1 m c) (aG m c) (aB m c)

theorem one_eq : Ideal.ofBits .f32 0x3F800000#32 = 1 := IdealRules.sign_bit.ideal_onePat .f32

/-- The weights in the scratch are the array the host concatenated. -/
theorem Wm_apply (c : Dev nD) (i : S5120x1024.Idx) :
    Body.Wm m c i = (V m c main_v22 : S5120x1024.Idx → EReal) i := rfl

/-- Point t's output block sits at rows 256 t .. 256 t + 255 and all 1024 columns. -/
theorem emb9 (t : Fin cfg0.N) (j : S256x1024.Idx) :
    ((cfg0.win 9).blk t).view.emb j = ix2 (grow t (j 0)) (j 1) := by
  funext a; apply Fin.ext
  have e := idx_facts t
  match a with
  | ⟨0, _⟩ => show win0_9.index t (0 : Fin 2) * 256 + 1 * (j 0).val = 256 * t.val + (j 0).val; omega
  | ⟨1, _⟩ => show win0_9.index t (1 : Fin 2) * 1024 + 1 * (j 1).val = (j 1).val; omega

/-- An index of the result array is in point t's block iff each coordinate is in the block's range on its axis. -/
theorem mem_blk9 (t : Fin cfg0.N) (i : S32768x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v25).slice (win0_9.rect t)).set ↔ _
  rw [View.set_slice_whole, Rect.mem_set_unit]
  exact Iff.rfl

/-- Every row of the result is in the block of the point numbered by the row's quotient by 256. -/
theorem cover9 (i : S32768x1024.Idx) : ∃ t : Fin cfg0.N, (cfg0.win 9).flush t = true ∧ i ∈ ((cfg0.win 9).blk t).view.set := by
  have hi0 : (i 0).val < 32768 := (i 0).isLt
  have hi1 : (i 1).val < 1024 := (i 1).isLt
  let t : Fin cfg0.N := ⟨(i 0).val / 256, by rw [show cfg0.N = 128 from N_0]; omega⟩
  have e := idx_facts t
  have tv : t.val = (i 0).val / 256 := rfl
  refine ⟨t, flush0_9 t, ?_⟩
  rw [mem_blk9]
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 1024 ≤ (i 1).val ∧ (i 1).val < win0_9.index t (1 : Fin 2) * 1024 + 1024; omega

section
variable (c : Dev nD)
  (hI : ∀ p : Fin 4096, -1024 ≤ (aI m c (ix1 p)).toInt ∧ (aI m c (ix1 p)).toInt < 1024)
  (hJ : ∀ p : Fin 4096, -1024 ≤ (aJ m c (ix1 p)).toInt ∧ (aJ m c (ix1 p)).toInt < 1024)
  (hS : ∀ k : Fin 1024, aS m c (ix2 (0 : Fin 1) k) ≠ 0)
include hI hJ hS

/-- Row r of point t's block, at column o, is the specification at global row 256 t + r: the row's pairs read the
    gathered columns, its tables are the gathered translations and reciprocal scales, its weights the transposed lw
    and w1, and the one law needed is that multiplying by the reciprocal of a nonzero scale is dividing by it. -/
theorem block_eq (t : Fin cfg0.N) (r : Fin 256) (o : Fin 1024) :
    Body.blockOf (iblk m c 0 t) (iblk m c 1 t) (iblk m c 2 t) (iblk m c 3 t) (iblk m c 4 t) (iblk m c 5 t) (iblk m c 6 t)
      (iblk m c 7 t) (iblk m c 8 t) (Body.Wm m c) (ix2 r o) = Gm m c (ix2 (grow t r) o) := by
  rw [Payload.blockOf_apply]
  have wI := fun p : Fin 4096 => Cert.PreDecode.wrap_in_range _ (hI p)
  have wJ := fun p : Fin 4096 => Cert.PreDecode.wrap_in_range _ (hJ p)
  refine (Cert.Spec.ln_congr (fun o' => ?_) (fun o' => ?_) (fun o' => ?_) o).trans
    (rfl : Cert.Spec.ln (fun o => aG m c (ix1 o)) (fun o => aB m c (ix1 o))
      (fun o' => Cert.Spec.cval (aX m c) (aI m c) (aJ m c) (aS m c) (aT m c) (aLW m c) (aW1 m c) (grow t r) o') o
        = Gm m c (ix2 (grow t r) o))
  · exact (iblk7_apply m c t o').trans (HostWeights.gamma_apply m c o')
  · exact (iblk8_apply m c t o').trans (HostWeights.beta_apply m c o')
  · exact Cert.Spec.row_eq (aX m c) (aI m c) (aJ m c) (aS m c) (aT m c) (aLW m c) (aW1 m c) (grow t r) o' _ one_eq hS
      _ _ _ _ _ _ _ _ _
      (fun k => (iblk0_apply m c t r k).trans (congrFun (V_main_arg0 m c) _))
      (fun p => (iblk1_apply m c t r p).trans (HostGather.xi_apply m c (grow t r) p (wI p).1 (wI p).2.1))
      (fun p => (iblk2_apply m c t r p).trans (HostGather.xj_apply m c (grow t r) p (wJ p).1 (wJ p).2.1))
      (fun p => (iblk3_apply m c t p).trans (HostTables.ti_apply m c p (wI p).1 (wI p).2.1))
      (fun p => (iblk4_apply m c t p).trans (HostTables.si_apply m c p (wI p).1 (wI p).2.1))
      (fun p => (iblk5_apply m c t p).trans (HostTables.tj_apply m c p (wJ p).1 (wJ p).2.1))
      (fun p => (iblk6_apply m c t p).trans (HostTables.sj_apply m c p (wJ p).1 (wJ p).2.1))
      (fun p => (Wm_apply m c _).trans (HostWeights.wT_top m c p o'))
      (fun k => (Wm_apply m c _).trans (HostWeights.wT_bot m c k o'))

/-- What point t writes back, at a block index: the specification at the block's place in the array. -/
theorem flushed_at (t : Fin cfg0.N) (j : S256x1024.Idx) :
    (cfg0.win 9).cut (grid0.coords t) (Body.blockOf (iblk m c 0 t) (iblk m c 1 t) (iblk m c 2 t) (iblk m c 3 t)
      (iblk m c 4 t) (iblk m c 5 t) (iblk m c 6 t) (iblk m c 7 t) (iblk m c 8 t) (Body.Wm m c)) j
      = View.read (Elt Ideal) ((cfg0.win 9).blk t).view (Gm m c) j := by
  show Body.blockOf (iblk m c 0 t) (iblk m c 1 t) (iblk m c 2 t) (iblk m c 3 t) (iblk m c 4 t) (iblk m c 5 t) (iblk m c 6 t)
      (iblk m c 7 t) (iblk m c 8 t) (Body.Wm m c) j = Gm m c (((cfg0.win 9).blk t).view.emb j)
  rw [emb9 t j, eq_ix2 j]
  exact block_eq m c hI hJ hS t (j 0) (j 1)

/-- WHAT POINT t WRITES BACK is block t of the specification's array of the arguments. -/
theorem flushed_eq (t : Fin cfg0.N) :
    (dats m 0 c).flushed 9 t = ((cfg0.win 9).blk t).view.read (Elt Ideal) (Gm m c) := by
  rw [Value.flushed9, Body.out_eq]
  funext j
  exact flushed_at m c hI hJ hS t j

/-- THE RESULT ARRAY after the run is the specification's function of the argument arrays. -/
theorem final : (dats m 0 c).arrAt 9 cfg0.N = Gm m c :=
  (dats m 0 c).arrAt_eq_of_cover 9 _ (fun t _ => flushed_eq m c hI hJ hS t) cover9

end

end Cert.KernelIdeal.KValue
end
-- ==== Proof.RefValue.lean ====
/-
  The reference program computes the specification G.

  Each stage of the reference is read at one index and identified with the corresponding piece of the specification:
  the affinely normalised feature xs, the two column gathers (a start index wrapped once when negative, then clamped
  into the axis), the pair product pp, the row cval as the sum of two contractions, and last the layer normalisation of
  that row (mean, deviation, biased variance, reciprocal square root, affine map).  Every sum is matched with the specification's term by term, over the same index set.
-/
import proofs.«402356_j54820962566348_3_alg».proof.Proof.Gen.ReferenceIdeal.Read
import proofs.«402356_j54820962566348_3_alg».proof.Proof.Spec
import proofs.«402356_j54820962566348_3_alg».proof.Proof.LibGatherCols
import Idealize.ShloMosaic.PureOps.Ideal.Laws
import Idealize.ShloMosaic.Lib.ValueIdx

noncomputable section

namespace Cert.RefValue

open Cert.ReferenceIdeal Cert.ReferenceIdeal.Gen Cert.ReferenceIdeal.Read Idealize.ShloMosaic Idealize.ShloMosaic.ValueIdx

section layers

variable (x0 : (⟨S32768x1024, .f32⟩ : BufTy).Contents (Elt Ideal)) (x1 x2 : (⟨S4096, .i32⟩ : BufTy).Contents (Elt Ideal))
  (x3 x4 : (⟨S1x1024, .f32⟩ : BufTy).Contents (Elt Ideal)) (x5 : (⟨S1024x4096, .f32⟩ : BufTy).Contents (Elt Ideal))
  (x6 : (⟨S1024x1024, .f32⟩ : BufTy).Contents (Elt Ideal)) (x7 x8 : (⟨S1024, .f32⟩ : BufTy).Contents (Elt Ideal))

/-- The normalised feature: (x - translation) / scale at (b, k), the two broadcasts read at row 0. -/
theorem v3_at (b : Fin 32768) (k : Fin 1024) :
    val_main_v3 (F := Ideal) x0 x3 x4 (ix2 b k) = Cert.Spec.xs x0 x3 x4 b k := by
  have e0 : idx_main_v0 (ix2 b k) = ix2 (0 : Fin 1) k :=
    funext fun a => Fin.ext (by match a with | ⟨0, _⟩ => rfl | ⟨1, _⟩ => rfl)
  have e2 : idx_main_v2 (ix2 b k) = ix2 (0 : Fin 1) k :=
    funext fun a => Fin.ext (by match a with | ⟨0, _⟩ => rfl | ⟨1, _⟩ => rfl)
  rw [val_main_v3_apply, val_main_v1_apply, val_main_v0_apply, val_main_v2_apply, e0, e2]
  rfl

/-- The first start-index column at p: the index wrapped once by 1024 when negative. -/
theorem v9_at (p : Fin 4096) :
    val_main_v9 (F := Ideal) x1 (ix2 p (0 : Fin 1)) = Cert.Spec.wrap (x1 (ix1 p)) := by
  have e : idx_main_v9 (ix2 p (0 : Fin 1)) = ix1 p :=
    funext fun a => Fin.ext (by match a with | ⟨0, _⟩ => rfl)
  rw [val_main_v9_apply, e, val_main_v8_apply, val_main_v5_apply, val_main_v7_apply, val_main_v4_apply,
    val_main_v6_apply, val_main_c_apply, val_main_c_0_apply]
  rfl

/-- The second start-index column at p. -/
theorem v16_at (p : Fin 4096) :
    val_main_v16 (F := Ideal) x2 (ix2 p (0 : Fin 1)) = Cert.Spec.wrap (x2 (ix1 p)) := by
  have e : idx_main_v16 (ix2 p (0 : Fin 1)) = ix1 p :=
    funext fun a => Fin.ext (by match a with | ⟨0, _⟩ => rfl)
  rw [val_main_v16_apply, e, val_main_v15_apply, val_main_v12_apply, val_main_v14_apply, val_main_v11_apply,
    val_main_v13_apply, val_main_c_1_apply, val_main_c_2_apply]
  rfl

/-- The first gather at (b, p): the normalised feature of row b at the wrapped, clamped column. -/
theorem v10_at (b : Fin 32768) (p : Fin 4096) :
    val_main_v10 (F := Ideal) x0 x1 x3 x4 (ix2 b p)
      = Cert.Spec.xs x0 x3 x4 b (Cert.Spec.col (Cert.Spec.wrap (x1 (ix1 p)))) := by
  unfold val_main_v10
  rw [Cert.LibGatherCols.gather_cols _ rfl rfl rfl rfl rfl rfl rfl _ _ b p (by decide), v3_at]
  refine congrArg (Cert.Spec.xs x0 x3 x4 b) (Fin.ext ?_)
  show min (BitVec.toInt (val_main_v9 (F := Ideal) x1 (ix2 p (0 : Fin 1)))).toNat 1023
    = min (BitVec.toInt (Cert.Spec.wrap (x1 (ix1 p)))).toNat 1023
  rw [v9_at]

/-- The second gather at (b, p). -/
theorem v17_at (b : Fin 32768) (p : Fin 4096) :
    val_main_v17 (F := Ideal) x0 x2 x3 x4 (ix2 b p)
      = Cert.Spec.xs x0 x3 x4 b (Cert.Spec.col (Cert.Spec.wrap (x2 (ix1 p)))) := by
  unfold val_main_v17
  rw [Cert.LibGatherCols.gather_cols _ rfl rfl rfl rfl rfl rfl rfl _ _ b p (by decide), v3_at]
  refine congrArg (Cert.Spec.xs x0 x3 x4 b) (Fin.ext ?_)
  show min (BitVec.toInt (val_main_v16 (F := Ideal) x2 (ix2 p (0 : Fin 1)))).toNat 1023
    = min (BitVec.toInt (Cert.Spec.wrap (x2 (ix1 p)))).toNat 1023
  rw [v16_at]

/-- The pair product at (b, p). -/
theorem v18_at (b : Fin 32768) (p : Fin 4096) :
    val_main_v18 (F := Ideal) x0 x1 x2 x3 x4 (ix2 b p) = Cert.Spec.pp x0 x1 x2 x3 x4 b p := by
  rw [val_main_v18_apply, v10_at, v17_at]
  rfl

/-- The row before normalisation at (b, o): the two contractions, each transpose read at swapped coordinates. -/
theorem v23_at (b : Fin 32768) (o : Fin 1024) :
    val_main_v23 (F := Ideal) x0 x1 x2 x3 x4 x5 x6 (ix2 b o) = Cert.Spec.cval x0 x1 x2 x3 x4 x5 x6 b o := by
  rw [val_main_v23_apply, val_main_v20_apply, val_main_v22_apply, Ideal.addf_def]
  unfold Cert.Spec.cval
  congr 1
  · refine Finset.sum_congr rfl fun p _ => ?_
    have el : lidx_main_v20 (ix2 b o) p = ix2 b p :=
      funext fun a => Fin.ext (by match a with | ⟨0, _⟩ => rfl | ⟨1, _⟩ => rfl)
    have er : ridx_main_v20 (ix2 b o) p = ix2 p o :=
      funext fun a => Fin.ext (by match a with | ⟨0, _⟩ => rfl | ⟨1, _⟩ => rfl)
    have et : idx_main_v19 (ix2 p o) = ix2 o p :=
      funext fun a => Fin.ext (by match a with | ⟨0, _⟩ => rfl | ⟨1, _⟩ => rfl)
    rw [el, er, v18_at, val_main_v19_apply, et]
  · refine Finset.sum_congr rfl fun k _ => ?_
    have el : lidx_main_v22 (ix2 b o) k = ix2 b k :=
      funext fun a => Fin.ext (by match a with | ⟨0, _⟩ => rfl | ⟨1, _⟩ => rfl)
    have er : ridx_main_v22 (ix2 b o) k = ix2 k o :=
      funext fun a => Fin.ext (by match a with | ⟨0, _⟩ => rfl | ⟨1, _⟩ => rfl)
    have et : idx_main_v21 (ix2 k o) = ix2 o k :=
      funext fun a => Fin.ext (by match a with | ⟨0, _⟩ => rfl | ⟨1, _⟩ => rfl)
    rw [el, er, val_main_v21_apply, et]

/-- The sum of the row over its 1024 columns; the sum's zero initial value drops out. -/
theorem v24_at (b : Fin 32768) :
    val_main_v24 (F := Ideal) x0 x1 x2 x3 x4 x5 x6 (ix1 b)
      = ∑ o : Fin 1024, Cert.Spec.cval x0 x1 x2 x3 x4 x5 x6 b o := by
  rw [val_main_v24_apply, val_main_cst_apply, Ideal.ofBits_def, Ideal.ofBits_zero_f32, zero_add]
  refine Finset.sum_congr rfl fun k _ => ?_
  have e : idx_main_v24 (ix1 b) k = ix2 b k :=
    funext fun a => Fin.ext (by match a with | ⟨0, _⟩ => rfl | ⟨1, _⟩ => rfl)
  rw [e, v23_at]

/-- The mean of the row. -/
theorem v27_at (b : Fin 32768) :
    val_main_v27 (F := Ideal) x0 x1 x2 x3 x4 x5 x6 (ix2 b (0 : Fin 1))
      = Cert.Spec.mu (fun o => Cert.Spec.cval x0 x1 x2 x3 x4 x5 x6 b o) := by
  have e : idx_main_v25 (ix2 b (0 : Fin 1)) = ix1 b :=
    funext fun a => Fin.ext (by match a with | ⟨0, _⟩ => rfl)
  rw [val_main_v27_apply, val_main_v25_apply, e, v24_at, val_main_v26_apply, val_main_cst_3_apply,
    Ideal.hostDivf_def, Ideal.ofBits_def]
  rfl

/-- The mean broadcast along the row, as the deviation subtracts it. -/
theorem v28_at (b : Fin 32768) (o : Fin 1024) :
    val_main_v28 (F := Ideal) x0 x1 x2 x3 x4 x5 x6 (ix2 b o)
      = Cert.Spec.mu (fun o => Cert.Spec.cval x0 x1 x2 x3 x4 x5 x6 b o) := by
  have e : idx_main_v28 (ix2 b o) = ix2 b (0 : Fin 1) :=
    funext fun a => Fin.ext (by match a with | ⟨0, _⟩ => rfl | ⟨1, _⟩ => rfl)
  rw [val_main_v28_apply, e, v27_at]

/-- The same broadcast of the mean, made a second time for the normalised output. -/
theorem v35_at (b : Fin 32768) (o : Fin 1024) :
    val_main_v35 (F := Ideal) x0 x1 x2 x3 x4 x5 x6 (ix2 b o)
      = Cert.Spec.mu (fun o => Cert.Spec.cval x0 x1 x2 x3 x4 x5 x6 b o) := by
  have e : idx_main_v35 (ix2 b o) = ix2 b (0 : Fin 1) :=
    funext fun a => Fin.ext (by match a with | ⟨0, _⟩ => rfl | ⟨1, _⟩ => rfl)
  rw [val_main_v35_apply, e, v27_at]

/-- The deviation from the mean, as the variance squares it. -/
theorem v29_at (b : Fin 32768) (o : Fin 1024) :
    val_main_v29 (F := Ideal) x0 x1 x2 x3 x4 x5 x6 (ix2 b o)
      = Cert.Spec.dev (fun o => Cert.Spec.cval x0 x1 x2 x3 x4 x5 x6 b o) o := by
  rw [val_main_v29_apply, v23_at, v28_at, Ideal.subf_def]
  rfl

/-- The deviation from the mean, as the output scales it. -/
theorem v36_at (b : Fin 32768) (o : Fin 1024) :
    val_main_v36 (F := Ideal) x0 x1 x2 x3 x4 x5 x6 (ix2 b o)
      = Cert.Spec.dev (fun o => Cert.Spec.cval x0 x1 x2 x3 x4 x5 x6 b o) o := by
  rw [val_main_v36_apply, v23_at, v35_at, Ideal.subf_def]
  rfl

/-- The sum of the squared deviations of the row. -/
theorem v31_at (b : Fin 32768) :
    val_main_v31 (F := Ideal) x0 x1 x2 x3 x4 x5 x6 (ix1 b)
      = ∑ o : Fin 1024, Cert.Spec.dev (fun o => Cert.Spec.cval x0 x1 x2 x3 x4 x5 x6 b o) o
          * Cert.Spec.dev (fun o => Cert.Spec.cval x0 x1 x2 x3 x4 x5 x6 b o) o := by
  rw [val_main_v31_apply, val_main_cst_4_apply, Ideal.ofBits_def, Ideal.ofBits_zero_f32, zero_add]
  refine Finset.sum_congr rfl fun k _ => ?_
  have e : idx_main_v31 (ix1 b) k = ix2 b k :=
    funext fun a => Fin.ext (by match a with | ⟨0, _⟩ => rfl | ⟨1, _⟩ => rfl)
  rw [e, val_main_v30_apply, v29_at, Ideal.mulf_def]

/-- The biased variance of the row. -/
theorem v34_at (b : Fin 32768) :
    val_main_v34 (F := Ideal) x0 x1 x2 x3 x4 x5 x6 (ix2 b (0 : Fin 1))
      = Cert.Spec.var (fun o => Cert.Spec.cval x0 x1 x2 x3 x4 x5 x6 b o) := by
  have e : idx_main_v32 (ix2 b (0 : Fin 1)) = ix1 b :=
    funext fun a => Fin.ext (by match a with | ⟨0, _⟩ => rfl)
  rw [val_main_v34_apply, val_main_v32_apply, e, v31_at, val_main_v33_apply, val_main_cst_5_apply,
    Ideal.hostDivf_def, Ideal.ofBits_def]
  rfl

/-- The reciprocal square root of the variance plus epsilon, broadcast along the row. -/
theorem v40_at (b : Fin 32768) (o : Fin 1024) :
    val_main_v40 (F := Ideal) x0 x1 x2 x3 x4 x5 x6 (ix2 b o)
      = Ideal.rsqrt (Cert.Spec.var (fun o => Cert.Spec.cval x0 x1 x2 x3 x4 x5 x6 b o) + Cert.Spec.eps) := by
  have e : idx_main_v40 (ix2 b o) = ix2 b (0 : Fin 1) :=
    funext fun a => Fin.ext (by match a with | ⟨0, _⟩ => rfl | ⟨1, _⟩ => rfl)
  rw [val_main_v40_apply, e, val_main_v39_apply, val_main_v38_apply, v34_at, val_main_v37_apply,
    val_main_cst_6_apply, Ideal.hostUnary_rsqrt_def, Ideal.addf_def, Ideal.ofBits_def]

/-- gamma broadcast to the result's shape reads gamma at the column. -/
theorem v43_at (b : Fin 32768) (o : Fin 1024) :
    val_main_v43 (F := Ideal) x7 (ix2 b o) = x7 (ix1 o) := by
  have e : idx_main_v43 (ix2 b o) = ix2 (0 : Fin 1) o :=
    funext fun a => Fin.ext (by match a with | ⟨0, _⟩ => rfl | ⟨1, _⟩ => rfl)
  have e' : idx_main_v42 (ix2 (0 : Fin 1) o) = ix1 o :=
    funext fun a => Fin.ext (by match a with | ⟨0, _⟩ => rfl)
  rw [val_main_v43_apply, e, val_main_v42_apply, e']

/-- beta broadcast to the result's shape reads beta at the column. -/
theorem v46_at (b : Fin 32768) (o : Fin 1024) :
    val_main_v46 (F := Ideal) x8 (ix2 b o) = x8 (ix1 o) := by
  have e : idx_main_v46 (ix2 b o) = ix2 (0 : Fin 1) o :=
    funext fun a => Fin.ext (by match a with | ⟨0, _⟩ => rfl | ⟨1, _⟩ => rfl)
  have e' : idx_main_v45 (ix2 (0 : Fin 1) o) = ix1 o :=
    funext fun a => Fin.ext (by match a with | ⟨0, _⟩ => rfl)
  rw [val_main_v46_apply, e, val_main_v45_apply, e']

end layers

/-- THE REFERENCE IS THE SPECIFICATION: read at (b, o), the reference's result is the layer normalisation of the row
    cval b at column o, scaled by gamma and shifted by beta. -/
theorem ref_eq_G
    (x0 : (⟨S32768x1024, .f32⟩ : BufTy).Contents (Elt Ideal)) (x1 x2 : (⟨S4096, .i32⟩ : BufTy).Contents (Elt Ideal))
    (x3 x4 : (⟨S1x1024, .f32⟩ : BufTy).Contents (Elt Ideal)) (x5 : (⟨S1024x4096, .f32⟩ : BufTy).Contents (Elt Ideal))
    (x6 : (⟨S1024x1024, .f32⟩ : BufTy).Contents (Elt Ideal)) (x7 x8 : (⟨S1024, .f32⟩ : BufTy).Contents (Elt Ideal)) :
    Cert.ReferenceIdeal.Read.val_main_v47 (F := Ideal) x0 x1 x2 x3 x4 x5 x6 x7 x8
      = Cert.Spec.G x0 x1 x2 x3 x4 x5 x6 x7 x8 := by
  funext i
  obtain ⟨b, o, rfl⟩ : ∃ (b : Fin 32768) (o : Fin 1024), i = ix2 b o := ⟨i 0, i 1, eq_ix2 i⟩
  rw [val_main_v47_apply, val_main_v44_apply, val_main_v41_apply, v36_at, v40_at, v43_at, v46_at,
    Ideal.addf_def, Ideal.mulf_def, Ideal.mulf_def]
  rfl

end Cert.RefValue

end
-- ==== Proof.lean ====
/-
  Equivalence over the extended reals of a fused pair-product / two-GEMM / LayerNorm kernel with its jnp reference.

  Both programs normalise the features, xs = (x - t) / s, multiply the two features each of 4096 index pairs names,
  contract the pair products with lw and the raw features with w1, add, and layer-normalise each row of 1024 (biased
  variance, eps inside the reciprocal square root) with an affine map by gamma and beta. They differ in where the work
  is done and in one piece of arithmetic. The kernel's wrapper gathers the RAW feature columns, the translations and
  the reciprocals 1/s per pair on the host, and the body computes (x - t) * (1/s); the reference divides. On the
  extended reals a * (1 / s) = a / s for every s other than zero, and that is the only law the proof uses: sums and
  products are the same sums and products on both sides, format changes are the identity, and the kernel's two
  accumulating matrix products against the two halves of one concatenated weight array are the reference's two
  contractions.

  The statement carries two evident-domain conditions beyond finiteness. The pair indices lie in [-1024, 1024), the
  range in which indexing a 1024-long axis is defined: outside it the kernel's take fills with a not-a-number while
  the reference's gather clamps. And no scale is zero: at s = 0 the reference's quotient is infinite or undefined
  while the kernel's product with 1/0 is not the same value.

  The frames of the two kernel programs are the generated ones; the reference's frame is its generated run. The
  kernel's value is read off the generated blockwise run: the weights scratch holds the concatenated weights after
  every grid point (copied in at each core's first point, untouched otherwise), each point's block is the body's
  arithmetic over its input blocks, and the 128 blocks tile the result.
-/
import proofs.«402356_j54820962566348_3_alg».proof.Defs
import proofs.«402356_j54820962566348_3_alg».proof.Proof.Gen.Kernel
import proofs.«402356_j54820962566348_3_alg».proof.Proof.Gen.Kernel.Skeleton
import proofs.«402356_j54820962566348_3_alg».proof.Proof.Gen.Kernel.Launch
import proofs.«402356_j54820962566348_3_alg».proof.Proof.Gen.Kernel.Points
import proofs.«402356_j54820962566348_3_alg».proof.Proof.Gen.Kernel.Frame
import proofs.«402356_j54820962566348_3_alg».proof.Proof.Gen.KernelIdeal
import proofs.«402356_j54820962566348_3_alg».proof.Proof.Gen.KernelIdeal.Skeleton
import proofs.«402356_j54820962566348_3_alg».proof.Proof.Gen.KernelIdeal.Launch
import proofs.«402356_j54820962566348_3_alg».proof.Proof.Gen.KernelIdeal.Points
import proofs.«402356_j54820962566348_3_alg».proof.Proof.Gen.KernelIdeal.Frame
import proofs.«402356_j54820962566348_3_alg».proof.Proof.Gen.ReferenceIdeal
import proofs.«402356_j54820962566348_3_alg».proof.Proof.Gen.Pre_finite_inputs
import proofs.«402356_j54820962566348_3_alg».proof.Proof.Gen.KernelIdeal.Value
import proofs.«402356_j54820962566348_3_alg».proof.Proof.Gen.ReferenceIdeal.Run
import proofs.«402356_j54820962566348_3_alg».proof.Proof.Gen.ReferenceIdeal.Read
import proofs.«402356_j54820962566348_3_alg».proof.Proof.KValue
import proofs.«402356_j54820962566348_3_alg».proof.Proof.RefValue
import proofs.«402356_j54820962566348_3_alg».proof.Proof.PreDecode
import Idealize.ShloMosaic.Adequacy
import Idealize.ShloMosaic.Init

noncomputable section

namespace Cert.Proof

open Idealize.ShloMosaic Idealize.SL.Sem

/-- The word-level kernel runs and leaves its arguments as they were. -/
theorem frame_p : Cert.frame_Kernel (hKernel := Cert.Kernel.Gen.facts) (hPre_finite_inputs := Cert.Pre_finite_inputs.Gen.facts) :=
  fun m ρ _ => Cert.Kernel.Gen.frame m ρ

/-- So does its idealization. -/
theorem frame_pi : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end with the specification's array of those arguments:
    the kernel by its blockwise run and the value of its blocks, the reference by its run read stage by stage. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hP := fun c => @Cert.PreDecode.of_pre Cert.Pre_finite_inputs.Gen.facts _ _ _ _ _ _ _ _ _ (hpre c)
  refine ⟨fun c => Cert.KernelIdeal.KValue.Gm m c, ?_, ?_⟩
  · exact (θ_run Cert.KernelIdeal.defs _ _).mono
      (fun r h c => ⟨(h c).1.trans (Cert.KernelIdeal.KValue.final m c (hP c).1 (hP c).2.1 (hP c).2.2), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v47_eq, Cert.RefValue.ref_eq_G, (hagree c).1, (hagree c).2.1, (hagree c).2.2.1,
      (hagree c).2.2.2.1, (hagree c).2.2.2.2.1, (hagree c).2.2.2.2.2.1, (hagree c).2.2.2.2.2.2.1, (hagree c).2.2.2.2.2.2.2.1,
      (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
